-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x64 .f32) (main_arg3 : FVec F S64 .f32) (main_arg4 : FVec F S64x16 .f32) (main_arg5 : FVec F S16 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x64 : Shape := ⟨2, ![5000, 64]⟩
abbrev S850000x64 : Shape := ⟨2, ![850000, 64]⟩
abbrev S1x64 : Shape := ⟨2, ![1, 64]⟩
abbrev S50000x16 : Shape := ⟨2, ![50000, 16]⟩
abbrev S5000x16 : Shape := ⟨2, ![5000, 16]⟩
abbrev S850000x16 : Shape := ⟨2, ![850000, 16]⟩
abbrev S1x16 : Shape := ⟨2, ![1, 16]⟩
abbrev S5000 : Shape := ⟨1, ![5000]⟩
abbrev S5000x1 : Shape := ⟨2, ![5000, 1]⟩

abbrev nBuf : Space → Nat
  | .hbm => 87
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x64, .f32⟩
  | .hbm, ⟨47, _⟩ => ⟨S850000x1, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .f32⟩
  | .hbm, ⟨57, _⟩ => ⟨S850000x64, .f32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S50000x16, .f32⟩
  | .hbm, ⟨67, _⟩ => ⟨S850000x1, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x16, .f32⟩
  | .hbm, ⟨77, _⟩ => ⟨S850000x16, .f32⟩
  | .hbm, ⟨78, _⟩ => ⟨S850000x16, .f32⟩
  | .hbm, ⟨79, _⟩ => ⟨S_, .f32⟩
  | .hbm, ⟨80, _⟩ => ⟨S50000x16, .f32⟩
  | .hbm, ⟨81, _⟩ => ⟨S850000x1, .i32⟩
  | .hbm, ⟨82, _⟩ => ⟨S50000x16, .f32⟩
  | .hbm, ⟨83, _⟩ => ⟨S1x16, .f32⟩
  | .hbm, ⟨84, _⟩ => ⟨S50000x16, .f32⟩
  | .hbm, ⟨85, _⟩ => ⟨S50000x16, .f32⟩
  | .hbm, ⟨86, _⟩ => ⟨S50000x16, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S5000x16, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S5000x64_S5000x64 : S5000x64.ShapeCasts S5000x64
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  shapeCasts_S5000x16_S5000x16 : S5000x16.ShapeCasts S5000x16
  reduces_S5000x16_S5000 : S5000x16.Reduces [1] S5000
  shapeCasts_S5000_S5000x1 : S5000.ShapeCasts S5000x1
  broadcasts_S5000x1_S5000x16 : S5000x1.Broadcasts S5000x16
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x16_S5000x16_1_0_0_1_n_n_wf : DotDims.WF S5000x64 S64x16 S5000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x16.size a ≤ S64x16.size a
  hwx1_1 : ∀ i : grid1.Coords, EltTy.bits .f32 = 32 ∨ (Rect.block (s := S64x16) S64x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S50000x16.size a
  hwx1_2 : ∀ i : grid1.Coords, EltTy.bits .f32 = 32 ∨ (Rect.block (s := S50000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S50000x16.size a
  hwx2_0 : ∀ i : grid2.Coords, EltTy.bits .f32 = 32 ∨ (Rect.block (s := S50000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x16.size a ≤ S50000x16.size a
  hwx2_1 : ∀ i : grid2.Coords, EltTy.bits .f32 = 32 ∨ (Rect.block (s := S50000x16) S5000x16.size (cc2_transform_1 i) (hinb2_1 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S5000x16.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x16 : Shape := ⟨2, ![50000, 16]⟩
abbrev S850000x16 : Shape := ⟨2, ![850000, 16]⟩
abbrev S1x16 : Shape := ⟨2, ![1, 16]⟩
abbrev S50000x1 : Shape := ⟨2, ![50000, 1]⟩

abbrev nBuf : Space → Nat
  | .hbm => 137
  | .vmem => 0
  | .smem => 0
  | _ => 0

abbrev hbmTy0_0 (i : Nat) : BufTy := match i % 128 with
  | 0 => ⟨S50000x64, .f32⟩
  | 1 => ⟨S2x800000, .i32⟩
  | 2 => ⟨S64x64, .f32⟩
  | 3 => ⟨S64, .f32⟩
  | 4 => ⟨S64x16, .f32⟩
  | 5 => ⟨S16, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S50000x64, .f32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S850000x1, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x64, .f32⟩
  | 57 => ⟨S850000x64, .f32⟩
  | 58 => ⟨S850000x64, .f32⟩
  | 59 => ⟨S_, .f32⟩
  | 60 => ⟨S50000x64, .f32⟩
  | 61 => ⟨S850000x1, .i32⟩
  | 62 => ⟨S50000x64, .f32⟩
  | 63 => ⟨S1x64, .f32⟩
  | 64 => ⟨S50000x64, .f32⟩
  | 65 => ⟨S50000x64, .f32⟩
  | 66 => ⟨S_, .f32⟩
  | 67 => ⟨S50000x64, .f32⟩
  | 68 => ⟨S50000x64, .f32⟩
  | 69 => ⟨S50000x16, .f32⟩
  | 70 => ⟨S_, .f32⟩
  | 71 => ⟨S850000, .f32⟩
  | 72 => ⟨S_, .f32⟩
  | 73 => ⟨S50000, .f32⟩
  | 74 => ⟨S850000x1, .i32⟩
  | 75 => ⟨S50000, .f32⟩
  | 76 => ⟨S_, .f32⟩
  | 77 => ⟨S50000, .f32⟩
  | 78 => ⟨S50000, .i1⟩
  | 79 => ⟨S50000, .f32⟩
  | 80 => ⟨S_, .f32⟩
  | 81 => ⟨S_, .f32⟩
  | 82 => ⟨S50000, .f32⟩
  | 83 => ⟨S50000, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000, .f32⟩
  | 102 => ⟨S850000, .f32⟩
  | 103 => ⟨S850000x1, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000x16, .f32⟩
  | 113 => ⟨S850000x16, .f32⟩
  | 114 => ⟨S850000x16, .f32⟩
  | 115 => ⟨S_, .f32⟩
  | 116 => ⟨S50000x16, .f32⟩
  | 117 => ⟨S850000x1, .i32⟩
  | 118 => ⟨S50000x16, .f32⟩
  | 119 => ⟨S1x16, .f32⟩
  | 120 => ⟨S50000x16, .f32⟩
  | 121 => ⟨S50000x16, .f32⟩
  | 122 => ⟨S_, .f32⟩
  | 123 => ⟨S50000, .f32⟩
  | 124 => ⟨S_, .f32⟩
  | 125 => ⟨S50000, .f32⟩
  | 126 => ⟨S50000, .f32⟩
  | 127 => ⟨S50000x1, .f32⟩
  | _ => ⟨S50000x64, .f32⟩

abbrev hbmTy0_1 (i : Nat) : BufTy := match i % 128 with
  | 0 => ⟨S50000x16, .f32⟩
  | 1 => ⟨S50000x16, .f32⟩
  | 2 => ⟨S50000x16, .f32⟩
  | 3 => ⟨S_, .f32⟩
  | 4 => ⟨S50000, .f32⟩
  | 5 => ⟨S50000x1, .f32⟩
  | 6 => ⟨S50000x1, .f32⟩
  | 7 => ⟨S50000x16, .f32⟩
  | 8 => ⟨S50000x16, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_17 : Ref sig .tc := ⟨.hbm, 104, rfl⟩
abbrev main_v73 : Ref sig .tc := ⟨.hbm, 105, rfl⟩
abbrev main_v74 : Ref sig .tc := ⟨.hbm, 106, rfl⟩
abbrev main_c_18 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  dot_S50000x64_S64x64_S50000x64_1_0_0_1_n_n_wf : DotDims.WF S50000x64 S64x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x16_S50000x16_1_0_0_1_n_n_wf : DotDims.WF S50000x64 S64x16 S50000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

class Facts : Prop extends Facts₀ where

variable [Facts]
-- ==== Proof.Walk.lean ====
/-
  Which buffers the stretches of host operations and the three regions leave alone. The degree normalisation and the
  two index vectors are computed before the first region and never written again; the weights and biases are
  arguments. So at every later segment boundary each of them still holds what it held when the first region was
  entered (for an argument: what it held at launch).
-/
import proofs.«155629_j1168231104918_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A stretch of host operations leaves a buffer none of them writes as it was. -/
macro "stretch_keeps" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## Before the first region: the arguments are as launched -/

theorem W3_keeps (c : Dev nD) (b : Ref sig .tc)
    (h0 : W1 m ρ c (Proc.devRef .tc b) = W0 m ρ c (Proc.devRef .tc b))
    (h1 : W2 m ρ c (Proc.devRef .tc b) = W1 m ρ c (Proc.devRef .tc b))
    (h2 : W3 m ρ c (Proc.devRef .tc b) = W2 m ρ c (Proc.devRef .tc b)) :
    W3 m ρ c (Proc.devRef .tc b) = m ((c : Thread nD τ).loc b) :=
  h2.trans (h1.trans (h0.trans rfl))

theorem W3_arg0 (c : Dev nD) : W3 m ρ c (Proc.devRef .tc main_arg0) = m ((c : Thread nD τ).loc main_arg0) :=
  W3_keeps m ρ c main_arg0 (by stretch_keeps hostOps0) (by stretch_keeps hostOps0_1) (by stretch_keeps hostOps0_2)
theorem W3_arg2 (c : Dev nD) : W3 m ρ c (Proc.devRef .tc main_arg2) = m ((c : Thread nD τ).loc main_arg2) :=
  W3_keeps m ρ c main_arg2 (by stretch_keeps hostOps0) (by stretch_keeps hostOps0_1) (by stretch_keeps hostOps0_2)
theorem W3_arg3 (c : Dev nD) : W3 m ρ c (Proc.devRef .tc main_arg3) = m ((c : Thread nD τ).loc main_arg3) :=
  W3_keeps m ρ c main_arg3 (by stretch_keeps hostOps0) (by stretch_keeps hostOps0_1) (by stretch_keeps hostOps0_2)
theorem W3_arg4 (c : Dev nD) : W3 m ρ c (Proc.devRef .tc main_arg4) = m ((c : Thread nD τ).loc main_arg4) :=
  W3_keeps m ρ c main_arg4 (by stretch_keeps hostOps0) (by stretch_keeps hostOps0_1) (by stretch_keeps hostOps0_2)
theorem W3_arg5 (c : Dev nD) : W3 m ρ c (Proc.devRef .tc main_arg5) = m ((c : Thread nD τ).loc main_arg5) :=
  W3_keeps m ρ c main_arg5 (by stretch_keeps hostOps0) (by stretch_keeps hostOps0_1) (by stretch_keeps hostOps0_2)

/-! ## Across the first region and the first aggregation -/

theorem W4_keeps (c : Dev nD) (b : Ref sig .tc) (hb : ∀ w, Pipeline.arrRef spec0 w ≠ b) :
    W4 m ρ c (Proc.devRef .tc b) = W3 m ρ c (Proc.devRef .tc b) := W4_of_ne m ρ c b hb

theorem W4_nrm (c : Dev nD) : W4 m ρ c (Proc.devRef .tc main_v29) = W3 m ρ c (Proc.devRef .tc main_v29) := W4_of_ne m ρ c main_v29 (by decide)
theorem W4_src (c : Dev nD) : W4 m ρ c (Proc.devRef .tc main_v3) = W3 m ρ c (Proc.devRef .tc main_v3) := W4_of_ne m ρ c main_v3 (by decide)
theorem W4_dst (c : Dev nD) : W4 m ρ c (Proc.devRef .tc main_v6) = W3 m ρ c (Proc.devRef .tc main_v6) := W4_of_ne m ρ c main_v6 (by decide)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

theorem W5_nrm (c : Dev nD) : W5 m ρ c (Proc.devRef .tc main_v29) = W3 m ρ c (Proc.devRef .tc main_v29) :=
  (show W5 m ρ c (Proc.devRef .tc main_v29) = W4 m ρ c (Proc.devRef .tc main_v29) by stretch_keeps hostOps1).trans (W4_nrm m ρ c)
theorem W5_src (c : Dev nD) : W5 m ρ c (Proc.devRef .tc main_v3) = W3 m ρ c (Proc.devRef .tc main_v3) :=
  (show W5 m ρ c (Proc.devRef .tc main_v3) = W4 m ρ c (Proc.devRef .tc main_v3) by stretch_keeps hostOps1).trans (W4_src m ρ c)
theorem W5_dst (c : Dev nD) : W5 m ρ c (Proc.devRef .tc main_v6) = W3 m ρ c (Proc.devRef .tc main_v6) :=
  (show W5 m ρ c (Proc.devRef .tc main_v6) = W4 m ρ c (Proc.devRef .tc main_v6) by stretch_keeps hostOps1).trans (W4_dst m ρ c)
theorem W5_arg4 (c : Dev nD) : W5 m ρ c (Proc.devRef .tc main_arg4) = m ((c : Thread nD τ).loc main_arg4) :=
  (show W5 m ρ c (Proc.devRef .tc main_arg4) = W4 m ρ c (Proc.devRef .tc main_arg4) by stretch_keeps hostOps1).trans (W4_arg4 m ρ c)
theorem W5_arg5 (c : Dev nD) : W5 m ρ c (Proc.devRef .tc main_arg5) = m ((c : Thread nD τ).loc main_arg5) :=
  (show W5 m ρ c (Proc.devRef .tc main_arg5) = W4 m ρ c (Proc.devRef .tc main_arg5) by stretch_keeps hostOps1).trans (W4_arg5 m ρ c)

/-! ## Across the second region -/

theorem W6_nrm (c : Dev nD) : W6 m ρ c (Proc.devRef .tc main_v29) = W3 m ρ c (Proc.devRef .tc main_v29) :=
  (W6_of_ne m ρ c main_v29 (by decide)).trans (W5_nrm m ρ c)
theorem W6_src (c : Dev nD) : W6 m ρ c (Proc.devRef .tc main_v3) = W3 m ρ c (Proc.devRef .tc main_v3) :=
  (W6_of_ne m ρ c main_v3 (by decide)).trans (W5_src m ρ c)
theorem W6_dst (c : Dev nD) : W6 m ρ c (Proc.devRef .tc main_v6) = W3 m ρ c (Proc.devRef .tc main_v6) :=
  (W6_of_ne m ρ c main_v6 (by decide)).trans (W5_dst m ρ c)
theorem W6_arg5 (c : Dev nD) : W6 m ρ c (Proc.devRef .tc main_arg5) = m ((c : Thread nD τ).loc main_arg5) :=
  (W6_of_ne m ρ c main_arg5 (by decide)).trans (W5_arg5 m ρ c)

end Cert.KernelIdeal.Val

end
-- ==== Proof.Norm.lean ====
/-
  What the host operations before the first region compute from the edge list: the source and destination index
  vectors (each row of the edge list followed by the self-loops 0 … 49999) and the edge weights
  w(e) = d(src e) · d(dst e), d(v) = deg(v)^(-1/2) where the in-degree deg(v) is positive and 0 elsewhere. They are
  the same operations, in the same order, as the reference applies to the same edge list.
-/
import proofs.«155629_j1168231104918_1_alg».proof.Proof.Gen.KernelIdeal.Frame
import proofs.«155629_j1168231104918_1_alg».proof.Proof.RefRead

set_option maxRecDepth 16384

noncomputable section

namespace Cert.KernelIdeal.Val

open Cert.KernelIdeal Cert.KernelIdeal.Gen
open Idealize.ShloMosaic Idealize.ShloMosaic.TcCoe Idealize.SL.Sem
open Cert.ReferenceIdeal.ReadP (val_main_v3 val_main_v6 val_main_v30)

variable {F : FTy → Type} [FloatOps F]
variable (m : (ℓ : Loc nD τ sig) → Buf (Elt F) ℓ) (ρ : Dev nD → PrngReg)

set_option maxHeartbeats 4000000 in
/-- The source index vector, when the first region is entered. -/
theorem W3_src (c : Dev nD) :
    (W3 m ρ c (Proc.devRef .tc main_v3) : S850000.Idx → Elt F .i32)
      = val_main_v3 (F := F) (m ((c : Thread nD τ).loc main_arg1)) := by
  show StableHlo.after hostOps0_2 (W2 m ρ c) (Proc.devRef .tc main_v3) = _
  after_results
  rfl

set_option maxHeartbeats 4000000 in
/-- The destination index vector, when the first region is entered. -/
theorem W3_dst (c : Dev nD) :
    (W3 m ρ c (Proc.devRef .tc main_v6) : S850000.Idx → Elt F .i32)
      = val_main_v6 (F := F) (m ((c : Thread nD τ).loc main_arg1)) := by
  show StableHlo.after hostOps0_2 (W2 m ρ c) (Proc.devRef .tc main_v6) = _
  after_results
  rfl

set_option maxHeartbeats 8000000 in
/-- The edge weights, when the first region is entered. -/
theorem W3_nrm (c : Dev nD) :
    (W3 m ρ c (Proc.devRef .tc main_v29) : S850000.Idx → Elt F .f32)
      = val_main_v30 (F := F) (m ((c : Thread nD τ).loc main_arg1)) := by
  show StableHlo.after hostOps0_2 (W2 m ρ c) (Proc.devRef .tc main_v29) = _
  after_results
  rfl

end Cert.KernelIdeal.Val

end
-- ==== Proof.Glue.lean ====
/-
  The graph side of the network as pure functions of arrays. A GCN layer takes node features h, multiplies the
  feature row of each edge's source node by the edge's weight, sums the products into the edge's destination node,
  and adds the bias: out(v, f) = Σ_{e : dst e = v} w(e) · h(src e, f) + b(f). An index below zero is first wrapped by
  adding the number of nodes. Both programs apply exactly these operations, so they are carried as one function of
  their operands and never opened.
-/
import proofs.«155629_j1168231104918_1_alg».proof.Proof.Gen.KernelIdeal

noncomputable section

namespace Cert.KernelIdeal.Val

open Cert.KernelIdeal Cert.KernelIdeal.Facts₀ Cert.KernelIdeal.Facts
open Idealize.ShloMosaic Idealize.ShloMosaic.TcCoe

variable {F : FTy → Type} [FloatOps F]

/-- One aggregation over 64 features: the weighted rows of `h` at the wrapped source indices, summed into the
    destination rows of a zero array, plus the bias along every row. -/
def aggregate64 (w : S850000.Idx → Elt F .f32) (src dst : S850000.Idx → Elt F .i32)
    (h : S50000x64.Idx → Elt F .f32) (b : S64.Idx → Elt F .f32) : S50000x64.Idx → Elt F .f32 :=
  addf
    (Host.scatterAdd scatter_S50000x64_S850000x1_S850000x64_1_0_0_1
      (broadcastInDim S50000x64 ![] bcast_S_S50000x64 (constant S_ .f32 0x00000000#32))
      (broadcastInDim S850000x1 ![0] bcast_S850000_S850000x1_0 dst)
      (mulf
        (broadcastInDim S850000x64 ![0, 1] bcast_S850000x1_S850000x64_0_1
          (broadcastInDim S850000x1 ![0] bcast_S850000_S850000x1_0 w))
        (Host.gather gather_S50000x64_S850000x1_S850000x64_1_0_n_n_0_1_164 h
          (broadcastInDim S850000x1 ![0] bcast_S850000_S850000x1_0
            (select
              (cmpi .slt src (broadcastInDim S850000 ![] bcast_S_S850000 (constantI S_ 32 0#32)))
              (addi src (broadcastInDim S850000 ![] bcast_S_S850000 (constantI S_ 32 50000#32)))
              src)))))
    (broadcastInDim S50000x64 ![0, 1] bcast_S1x64_S50000x64_0_1
      (broadcastInDim S1x64 ![1] bcast_S64_S1x64_1 b))

/-- The same aggregation over 16 features. -/
def aggregate16 (w : S850000.Idx → Elt F .f32) (src dst : S850000.Idx → Elt F .i32)
    (h : S50000x16.Idx → Elt F .f32) (b : S16.Idx → Elt F .f32) : S50000x16.Idx → Elt F .f32 :=
  addf
    (Host.scatterAdd scatter_S50000x16_S850000x1_S850000x16_1_0_0_1
      (broadcastInDim S50000x16 ![] bcast_S_S50000x16 (constant S_ .f32 0x00000000#32))
      (broadcastInDim S850000x1 ![0] bcast_S850000_S850000x1_0 dst)
      (mulf
        (broadcastInDim S850000x16 ![0, 1] bcast_S850000x1_S850000x16_0_1
          (broadcastInDim S850000x1 ![0] bcast_S850000_S850000x1_0 w))
        (Host.gather gather_S50000x16_S850000x1_S850000x16_1_0_n_n_0_1_116 h
          (broadcastInDim S850000x1 ![0] bcast_S850000_S850000x1_0
            (select
              (cmpi .slt src (broadcastInDim S850000 ![] bcast_S_S850000 (constantI S_ 32 0#32)))
              (addi src (broadcastInDim S850000 ![] bcast_S_S850000 (constantI S_ 32 50000#32)))
              src)))))
    (broadcastInDim S50000x16 ![0, 1] bcast_S1x16_S50000x16_0_1
      (broadcastInDim S1x16 ![1] bcast_S16_S1x16_1 b))

end Cert.KernelIdeal.Val

end
-- ==== Proof.Agg.lean ====
/-
  The two stretches of host operations between the regions are the two aggregations: each leaves, in the buffer the
  next region reads, the aggregation of the array the region before it wrote, with the edge weights and the two index
  vectors it finds in their buffers and the layer's bias.
-/
import proofs.«155629_j1168231104918_1_alg».proof.Proof.Gen.KernelIdeal.Frame
import proofs.«155629_j1168231104918_1_alg».proof.Proof.Glue

set_option maxRecDepth 16384

noncomputable section

namespace Cert.KernelIdeal.Val

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

set_option maxHeartbeats 4000000 in
/-- When the second region is entered its input holds the first aggregation of the first region's output. -/
theorem W5_aggregate (c : Dev nD) :
    (W5 m ρ c (Proc.devRef .tc main_v46) : S50000x64.Idx → Elt F .f32)
      = aggregate64 (W4 m ρ c (Proc.devRef .tc main_v29)) (W4 m ρ c (Proc.devRef .tc main_v3))
          (W4 m ρ c (Proc.devRef .tc main_v6)) (W4 m ρ c (Proc.devRef .tc main_v30)) (W4 m ρ c (Proc.devRef .tc main_arg3)) := by
  show StableHlo.after hostOps1 (W4 m ρ c) (Proc.devRef .tc main_v46) = _
  after_results
  rfl

set_option maxHeartbeats 4000000 in
/-- When the third region is entered its input holds the second aggregation of the second region's output. -/
theorem W7_aggregate (c : Dev nD) :
    (W7 m ρ c (Proc.devRef .tc main_v63) : S50000x16.Idx → Elt F .f32)
      = aggregate16 (W6 m ρ c (Proc.devRef .tc main_v29)) (W6 m ρ c (Proc.devRef .tc main_v3))
          (W6 m ρ c (Proc.devRef .tc main_v6)) (W6 m ρ c (Proc.devRef .tc main_v47)) (W6 m ρ c (Proc.devRef .tc main_arg5)) := by
  show StableHlo.after hostOps2 (W6 m ρ c) (Proc.devRef .tc main_v63) = _
  after_results
  rfl

end Cert.KernelIdeal.Val

end
-- ==== Proof.RefGlue.lean ====
/-
  The reference's two aggregations are the same function as the kernel program's: the reference's stage after its
  first aggregation is that function of its edge weights, index vectors, first product and bias, and likewise the
  second — where the reference computes the edge weights a second time, by the same operations of the same edge list.
-/
import proofs.«155629_j1168231104918_1_alg».proof.Proof.Glue
import proofs.«155629_j1168231104918_1_alg».proof.Proof.RefRead

set_option maxRecDepth 16384

noncomputable section

namespace Cert.KernelIdeal.Val

open Cert.KernelIdeal
open Idealize.ShloMosaic Idealize.ShloMosaic.TcCoe
open Cert.ReferenceIdeal.ReadP (val_main_v3 val_main_v6 val_main_v7 val_main_v30 val_main_v46 val_main_v48 val_main_v71 val_main_v87)

variable {F : FTy → Type} [FloatOps F]

/-- The reference's second computation of the edge weights is its first. -/
theorem refWeights_again (x1 : (⟨Cert.ReferenceIdeal.S2x800000, .i32⟩ : BufTy).Contents (Elt F)) :
    val_main_v71 (F := F) x1 = val_main_v30 (F := F) x1 := rfl

/-- The reference's first aggregation. -/
theorem refAggregate64 (x0 : (⟨Cert.ReferenceIdeal.S50000x64, .f32⟩ : BufTy).Contents (Elt F))
    (x1 : (⟨Cert.ReferenceIdeal.S2x800000, .i32⟩ : BufTy).Contents (Elt F))
    (x2 : (⟨Cert.ReferenceIdeal.S64x64, .f32⟩ : BufTy).Contents (Elt F))
    (x3 : (⟨Cert.ReferenceIdeal.S64, .f32⟩ : BufTy).Contents (Elt F)) :
    val_main_v46 (F := F) x0 x1 x2 x3
      = aggregate64 (val_main_v30 (F := F) x1) (val_main_v3 (F := F) x1) (val_main_v6 (F := F) x1) (val_main_v7 (F := F) x0 x2) x3 := rfl

/-- The reference's second aggregation. -/
theorem refAggregate16 (x0 : (⟨Cert.ReferenceIdeal.S50000x64, .f32⟩ : BufTy).Contents (Elt F))
    (x1 : (⟨Cert.ReferenceIdeal.S2x800000, .i32⟩ : BufTy).Contents (Elt F))
    (x2 : (⟨Cert.ReferenceIdeal.S64x64, .f32⟩ : BufTy).Contents (Elt F))
    (x3 : (⟨Cert.ReferenceIdeal.S64, .f32⟩ : BufTy).Contents (Elt F))
    (x4 : (⟨Cert.ReferenceIdeal.S64x16, .f32⟩ : BufTy).Contents (Elt F))
    (x5 : (⟨Cert.ReferenceIdeal.S16, .f32⟩ : BufTy).Contents (Elt F)) :
    val_main_v87 (F := F) x0 x1 x2 x3 x4 x5
      = aggregate16 (val_main_v71 (F := F) x1) (val_main_v3 (F := F) x1) (val_main_v6 (F := F) x1) (val_main_v48 (F := F) x0 x1 x2 x3 x4) x5 := rfl

end Cert.KernelIdeal.Val

end
-- ==== Proof.Dense1.lean ====
/-
  The first dense layer. The kernel computes x·W₁ a block of 5000 rows at a time: at grid point t the body
  multiplies rows 5000·t … 5000·t+4999 of x by the whole of W₁ and writes the product back as the same rows of the
  result. So after the ten points the result array holds, at (r, j), the sum over k of x(r, k) · W₁(k, j): the
  reference's whole product read at that index.

  In order: the block product read at an entry (p, q) is the sum over k of x(p, k) · w(k, q) (the narrowing of the
  operands is the identity on the extended reals, and the accumulator the product is added into is zero); the index
  maps over the grid (point t takes row block t of x and of the result, and the weights whole); hence one entry of
  the block product at point t is the entry of the whole product at row 5000·t + p; what point t writes back is
  therefore block t of the whole product; row r lies in block r / 5000, so the ten blocks cover the result array;
  and so the array is the whole product.
-/
import proofs.«155629_j1168231104918_1_alg».proof.Proof.Gen.KernelIdeal.Frame
import proofs.«155629_j1168231104918_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.ReferenceIdeal.ReadP (val_main_v7 val_main_v46 val_main_v47 val_main_v48 val_main_v87 val_main_v88)

variable (V : (c : Dev nD) → (b : Ref sig .tc) → Buf (Elt Ideal) ((c : Thread nD τ).loc b))

namespace Dense1

/-- The block product's operand indices, axis by axis: the left operand is read at (row of the entry, k), the right at
    (k, column of the entry), k the one contracted coordinate. -/
theorem blockDot_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem blockDot_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem blockDot_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem blockDot_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block product at (p, q): the sum over k of x(p, k) · w(k, q). -/
theorem blockDot_apply (x : Vec Ideal S5000x64 .f32) (w : Vec Ideal S64x64 .f32) (p : Fin 5000) (q : Fin 64) :
    k0_pay1 x w (ix2 p q) = ∑ k : Fin 64, x (ix2 p k) * w (ix2 k q) := by
  unfold k0_pay1
  refine (Ideal.matmul_constant_zero_apply dot_S5000x64_S64x64_S5000x64_1_0_0_1_n_n none _ _ (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact blockDot_lhs_0 _ _
    | ⟨1, _⟩ => exact (blockDot_lhs_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (blockDot_rhs_0 _ _).trans hk
    | ⟨1, _⟩ => exact blockDot_rhs_1 _ _)
  show (truncf .bf16 x bitsLt_bf16_f32 : FVec Ideal S5000x64 .bf16) _ * (truncf .bf16 w bitsLt_bf16_f32 : FVec Ideal S64x64 .bf16) _ = _
  rw [el, er]
  rfl

theorem hz : (![0, 0] : Fin 2 → Nat) = fun _ => 0 := funext fun a => by fin_cases a <;> rfl

/-- The index maps over the grid: point t takes row block t of x and of the result, all columns; the weights whole. -/
theorem rowBlock_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a block product is the entry of the whole product at the block's place: if the block x holds rows
    b·5000 … of x0 and w is all of x2, then (x·w)(j) = G(i) for i = (b·5000 + j₀, j₁), G the whole product. -/
theorem block_point (x : Vec Ideal S5000x64 .f32) (w : Vec Ideal S64x64 .f32)
    (x0 : (⟨S50000x64, .f32⟩ : BufTy).Contents (Elt Ideal)) (x2 : (⟨S64x64, .f32⟩ : BufTy).Contents (Elt Ideal))
    (G : (⟨S50000x64, .f32⟩ : BufTy).Contents (Elt Ideal))
    (hG : ∀ (r : Fin 50000) (j : Fin 64), G (ix2 r j) = ∑ k : Fin 64, x0 (ix2 r k) * x2 (ix2 k j))
    (b : Nat) (hx : ∀ (y : S5000x64.Idx) (i : S50000x64.Idx), (i 0).val = b * 5000 + (y 0).val → (i 1).val = (y 1).val → x y = x0 i)
    (hw : ∀ y : S64x64.Idx, w y = x2 y) (j : S5000x64.Idx) (i : S50000x64.Idx)
    (hi0 : (i 0).val = b * 5000 + (j 0).val) (hi1 : (i 1).val = (j 1).val) :
    k0_pay1 x w j = G i := by
  obtain ⟨p, q, rfl⟩ : ∃ (p : Fin 5000) (q : Fin 64), j = ix2 p q := ⟨j 0, j 1, eq_ix2 j⟩
  obtain ⟨r, s, rfl⟩ : ∃ (r : Fin 50000) (s : Fin 64), i = ix2 r s := ⟨i 0, i 1, eq_ix2 i⟩
  have hs : s = q := Fin.ext hi1
  subst hs
  rw [blockDot_apply, hG]
  refine Finset.sum_congr rfl fun k _ => ?_
  rw [hx (ix2 p k) (ix2 r k) hi0 rfl, hw]

/-- What point t writes back is block t of G. -/
theorem flushed_block (c : Dev nD)
    (x0 : (⟨S50000x64, .f32⟩ : BufTy).Contents (Elt Ideal)) (x2 : (⟨S64x64, .f32⟩ : BufTy).Contents (Elt Ideal))
    (G : (⟨S50000x64, .f32⟩ : BufTy).Contents (Elt Ideal))
    (hG : ∀ (r : Fin 50000) (j : Fin 64), G (ix2 r j) = ∑ k : Fin 64, x0 (ix2 r k) * x2 (ix2 k j))
    (h0 : V c main_arg0 = x0) (h2 : V c main_arg2 = x2) (t : Fin cfg0.N) :
    (dat0 V c).flushed 2 t = ((cfg0.win 2).blk t).view.read (Elt Ideal) G := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  obtain ⟨e00, e01, e10, e11, e20, e21⟩ := rowBlock_facts t
  funext j
  refine block_point (iblk0 V c 0 t) (iblk0 V c 1 t) x0 x2 G hG t.val ?_ ?_ j (((cfg0.win 2).blk t).view.emb j) ?_ ?_
  · intro y i hi0 hi1
    show V c main_arg0 (((cfg0.win 0).blk t).view.emb y) = x0 i
    rw [h0]
    congr 1
    funext a; apply Fin.ext
    match a with
    | ⟨0, _⟩ => show win0_0.index t (0 : Fin 2) * 5000 + 1 * (y 0).val = (i 0).val; omega
    | ⟨1, _⟩ => show win0_0.index t (1 : Fin 2) * 64 + 1 * (y 1).val = (i 1).val; omega
  · intro y
    show V c main_arg2 (((cfg0.win 1).blk t).view.emb y) = x2 y
    rw [h2]
    congr 1
    funext a; apply Fin.ext
    match a with
    | ⟨0, _⟩ => show win0_1.index t (0 : Fin 2) * 64 + 1 * (y 0).val = (y 0).val; omega
    | ⟨1, _⟩ => show win0_1.index t (1 : Fin 2) * 64 + 1 * (y 1).val = (y 1).val; omega
  · show win0_2.index t (0 : Fin 2) * 5000 + 1 * (j 0).val = t.val * 5000 + (j 0).val; omega
  · show win0_2.index t (1 : Fin 2) * 64 + 1 * (j 1).val = (j 1).val; omega

/-- An index of the result array is in point t's block iff each coordinate is in the block's range on its axis. -/
theorem mem_rowBlock (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Every index of the result array is in some point's block: row r is in block r / 5000. -/
theorem rows_covered (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, e20, e21⟩ := rowBlock_facts t
  refine ⟨t, flush0_2 t, ?_⟩
  rw [mem_rowBlock]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- So after the ten points the result array is G, for any G that reads at (r, j) as the sum over k of x0(r, k) · x2(k, j). -/
theorem product_array (c : Dev nD)
    (x0 : (⟨S50000x64, .f32⟩ : BufTy).Contents (Elt Ideal)) (x2 : (⟨S64x64, .f32⟩ : BufTy).Contents (Elt Ideal))
    (G : (⟨S50000x64, .f32⟩ : BufTy).Contents (Elt Ideal))
    (hG : ∀ (r : Fin 50000) (j : Fin 64), G (ix2 r j) = ∑ k : Fin 64, x0 (ix2 r k) * x2 (ix2 k j))
    (h0 : V c main_arg0 = x0) (h2 : V c main_arg2 = x2) :
    (dat0 V c).arrAt 2 cfg0.N = G :=
  (dat0 V c).arrAt_eq_of_cover 2 G (fun t _ => flushed_block V c x0 x2 G hG h0 h2 t) rows_covered

end Dense1

/-- After region 0 its output array is the whole product of the two arrays it finds at its inputs. -/
theorem dense1_array (c : Dev nD) (x0 : (⟨Cert.ReferenceIdeal.S50000x64, .f32⟩ : BufTy).Contents (Elt Ideal))
    (x2 : (⟨Cert.ReferenceIdeal.S64x64, .f32⟩ : BufTy).Contents (Elt Ideal))
    (h0 : V c main_arg0 = x0) (h2 : V c main_arg2 = x2) :
    (dat0 V c).arrAt 2 cfg0.N = val_main_v7 (F := Ideal) x0 x2 := by
  refine Dense1.product_array V c x0 x2 _ (fun r j => ?_) h0 h2
  rw [Cert.ReferenceIdeal.ReadP.val_main_v7_apply]
  refine Finset.sum_congr rfl fun k _ => ?_
  have el : Cert.ReferenceIdeal.ReadP.lidx_main_v7 (ix2 r j) k = ix2 r k :=
    funext fun a => Fin.ext (by match a with | ⟨0, _⟩ => rfl | ⟨1, _⟩ => rfl)
  have er : Cert.ReferenceIdeal.ReadP.ridx_main_v7 (ix2 r j) k = ix2 k j :=
    funext fun a => Fin.ext (by match a with | ⟨0, _⟩ => rfl | ⟨1, _⟩ => rfl)
  rw [el, er]

end Cert.KernelIdeal.Val

end
-- ==== Proof.Dense2.lean ====
/-
  The second dense layer with its ReLU. At grid point t the kernel takes rows 5000·t … of the aggregated array,
  clamps them below at zero, multiplies by the whole of W₂ and writes the product back as the same rows. After the
  ten points the result array holds, at (r, j), the sum over k of max(a(r, k), 0) · W₂(k, j): the reference's
  relu followed by its whole product, read at that index.

  In order: the block's clamped product read at an entry (p, q) is the sum over k of max(x(p, k), 0) · w(k, q) (the
  cast to the same shape and the narrowing of the operands are identities on the extended reals, the accumulator the
  product is added into is zero, and the zero of the clamp is kept as the word both programs print); the index maps
  over the grid (point t takes row block t of the input and of the result, and the weights whole); hence one entry of
  the block's product at point t is the entry of the whole clamped product at row 5000·t + p; what point t writes back
  is therefore block t of the whole clamped product; row r lies in block r / 5000, so the ten blocks cover the result
  array; and so the array is the whole clamped product, which is the reference's relu then product index by index.
-/
import proofs.«155629_j1168231104918_1_alg».proof.Proof.Gen.KernelIdeal.Frame
import proofs.«155629_j1168231104918_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.ReferenceIdeal.ReadP (val_main_v7 val_main_v46 val_main_v47 val_main_v48 val_main_v87 val_main_v88)

variable (V : (c : Dev nD) → (b : Ref sig .tc) → Buf (Elt Ideal) ((c : Thread nD τ).loc b))

namespace Dense2

/-- The block product's operand indices, axis by axis: the left operand is read at (row of the entry, k), the right at
    (k, column of the entry), k the one contracted coordinate. -/
theorem blockDot_lhs_0 (i : S5000x16.Idx) (q : dot_S5000x64_S64x16_S5000x16_1_0_0_1_n_n.contr.Idx) :
    (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
theorem blockDot_lhs_1 (i : S5000x16.Idx) (q : dot_S5000x64_S64x16_S5000x16_1_0_0_1_n_n.contr.Idx) :
    (dot_S5000x64_S64x16_S5000x16_1_0_0_1_n_n.lhsIdx i q 1).val = (q ⟨0, by decide⟩).val :=
  dot_S5000x64_S64x16_S5000x16_1_0_0_1_n_n.lhsIdx_val_of_single rfl i q
theorem blockDot_rhs_0 (i : S5000x16.Idx) (q : dot_S5000x64_S64x16_S5000x16_1_0_0_1_n_n.contr.Idx) :
    (dot_S5000x64_S64x16_S5000x16_1_0_0_1_n_n.rhsIdx i q 0).val = (q ⟨0, by decide⟩).val :=
  dot_S5000x64_S64x16_S5000x16_1_0_0_1_n_n.rhsIdx_val_of_single rfl i q
theorem blockDot_rhs_1 (i : S5000x16.Idx) (q : dot_S5000x64_S64x16_S5000x16_1_0_0_1_n_n.contr.Idx) :
    (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

/-- The block's clamped product at (p, q): the sum over k of max(x(p, k), 0) · w(k, q), the zero kept as the word it is
    printed with. -/
theorem blockDot_apply (x : Vec Ideal S5000x64 .f32) (w : Vec Ideal S64x16 .f32) (p : Fin 5000) (q : Fin 16) :
    k1_pay1 x w (ix2 p q) = ∑ k : Fin 64, max (x (ix2 p k)) (Ideal.ofBits .f32 0x00000000#32) * w (ix2 k q) := by
  unfold k1_pay1
  refine (Ideal.matmul_constant_zero_apply dot_S5000x64_S64x16_S5000x16_1_0_0_1_n_n none _ _ (ix2 p q)).trans ?_
  rw [← Equiv.sum_comp (ValueIdx.contrEquiv1 dot_S5000x64_S64x16_S5000x16_1_0_0_1_n_n 64 rfl rfl).symm]
  refine Finset.sum_congr rfl fun k _ => ?_
  have hk := ValueIdx.contrEquiv1_symm_val dot_S5000x64_S64x16_S5000x16_1_0_0_1_n_n 64 rfl rfl k
  have el : dot_S5000x64_S64x16_S5000x16_1_0_0_1_n_n.lhsIdx (ix2 p q) ((ValueIdx.contrEquiv1 dot_S5000x64_S64x16_S5000x16_1_0_0_1_n_n 64 rfl rfl).symm k) = ix2 p k := funext fun a => Fin.ext (by
    match a with
    | ⟨0, _⟩ => exact blockDot_lhs_0 _ _
    | ⟨1, _⟩ => exact (blockDot_lhs_1 _ _).trans hk)
  have er : dot_S5000x64_S64x16_S5000x16_1_0_0_1_n_n.rhsIdx (ix2 p q) ((ValueIdx.contrEquiv1 dot_S5000x64_S64x16_S5000x16_1_0_0_1_n_n 64 rfl rfl).symm k) = ix2 k q := funext fun a => Fin.ext (by
    match a with
    | ⟨0, _⟩ => exact (blockDot_rhs_0 _ _).trans hk
    | ⟨1, _⟩ => exact blockDot_rhs_1 _ _)
  show (truncf .bf16 (maximumf (shapeCast S5000x64 x shapeCasts_S5000x64_S5000x64) (broadcast S5000x64 (Scalar.ofBits .f32 0x00000000#32))) bitsLt_bf16_f32 : FVec Ideal S5000x64 .bf16) _ * (truncf .bf16 w bitsLt_bf16_f32 : FVec Ideal S64x16 .bf16) _ = _
  rw [el, er, shapeCast_self]
  rfl

theorem hz : (![0, 0] : Fin 2 → Nat) = fun _ => 0 := funext fun a => by fin_cases a <;> rfl

/-- The index maps over the grid: point t takes row block t of the input and of the result, all columns; the weights whole. -/
theorem rowBlock_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One entry of a block's clamped product is the entry of the whole clamped product at the block's place: if the block x
    holds rows b·5000 … of a and w is all of x4, then the block's entry at j is G(i) for i = (b·5000 + j₀, j₁). -/
theorem block_point (x : Vec Ideal S5000x64 .f32) (w : Vec Ideal S64x16 .f32)
    (a : (⟨S50000x64, .f32⟩ : BufTy).Contents (Elt Ideal)) (x4 : (⟨S64x16, .f32⟩ : BufTy).Contents (Elt Ideal))
    (G : (⟨S50000x16, .f32⟩ : BufTy).Contents (Elt Ideal))
    (hG : ∀ (r : Fin 50000) (j : Fin 16), G (ix2 r j) = ∑ k : Fin 64, max (a (ix2 r k)) (Ideal.ofBits .f32 0x00000000#32) * x4 (ix2 k j))
    (b : Nat) (hx : ∀ (y : S5000x64.Idx) (i : S50000x64.Idx), (i 0).val = b * 5000 + (y 0).val → (i 1).val = (y 1).val → x y = a i)
    (hw : ∀ y : S64x16.Idx, w y = x4 y) (j : S5000x16.Idx) (i : S50000x16.Idx)
    (hi0 : (i 0).val = b * 5000 + (j 0).val) (hi1 : (i 1).val = (j 1).val) :
    k1_pay1 x w j = G i := by
  obtain ⟨p, q, rfl⟩ : ∃ (p : Fin 5000) (q : Fin 16), j = ix2 p q := ⟨j 0, j 1, eq_ix2 j⟩
  obtain ⟨r, s, rfl⟩ : ∃ (r : Fin 50000) (s : Fin 16), i = ix2 r s := ⟨i 0, i 1, eq_ix2 i⟩
  have hs : s = q := Fin.ext hi1
  subst hs
  rw [blockDot_apply, hG]
  refine Finset.sum_congr rfl fun k _ => ?_
  rw [hx (ix2 p k) (ix2 r k) hi0 rfl, hw]

/-- What point t writes back is block t of G. -/
theorem flushed_block (c : Dev nD)
    (a : (⟨S50000x64, .f32⟩ : BufTy).Contents (Elt Ideal)) (x4 : (⟨S64x16, .f32⟩ : BufTy).Contents (Elt Ideal))
    (G : (⟨S50000x16, .f32⟩ : BufTy).Contents (Elt Ideal))
    (hG : ∀ (r : Fin 50000) (j : Fin 16), G (ix2 r j) = ∑ k : Fin 64, max (a (ix2 r k)) (Ideal.ofBits .f32 0x00000000#32) * x4 (ix2 k j))
    (hA : V c main_v46 = a) (hW : V c main_arg4 = x4) (t : Fin cfg1.N) :
    (dat1 V c).flushed 2 t = ((cfg1.win 2).blk t).view.read (Elt Ideal) G := by
  show (cfg1.win 2).cut (grid1.coords t) ((dat1 V c).after 2 t) = _
  rw [after1_2]
  unfold out1_2
  rw [View.canon_unit_zero hz]
  simp only [View.ld_unit_zero (S := S5000x64) hz, View.ld_unit_zero (S := S64x16) hz]
  obtain ⟨e00, e01, e10, e11, e20, e21⟩ := rowBlock_facts t
  funext j
  refine block_point (iblk1 V c 0 t) (iblk1 V c 1 t) a x4 G hG t.val ?_ ?_ j (((cfg1.win 2).blk t).view.emb j) ?_ ?_
  · intro y i hi0 hi1
    show V c main_v46 (((cfg1.win 0).blk t).view.emb y) = a i
    rw [hA]
    congr 1
    funext d; apply Fin.ext
    match d with
    | ⟨0, _⟩ => show win1_0.index t (0 : Fin 2) * 5000 + 1 * (y 0).val = (i 0).val; omega
    | ⟨1, _⟩ => show win1_0.index t (1 : Fin 2) * 64 + 1 * (y 1).val = (i 1).val; omega
  · intro y
    show V c main_arg4 (((cfg1.win 1).blk t).view.emb y) = x4 y
    rw [hW]
    congr 1
    funext d; apply Fin.ext
    match d with
    | ⟨0, _⟩ => show win1_1.index t (0 : Fin 2) * 64 + 1 * (y 0).val = (y 0).val; omega
    | ⟨1, _⟩ => show win1_1.index t (1 : Fin 2) * 16 + 1 * (y 1).val = (y 1).val; omega
  · show win1_2.index t (0 : Fin 2) * 5000 + 1 * (j 0).val = t.val * 5000 + (j 0).val; omega
  · show win1_2.index t (1 : Fin 2) * 16 + 1 * (j 1).val = (j 1).val; omega

/-- An index of the result array is in point t's block iff each coordinate is in the block's range on its axis. -/
theorem mem_rowBlock (t : Fin cfg1.N) (i : S50000x16.Idx) :
    i ∈ ((cfg1.win 2).blk t).view.set ↔ ∀ d : Fin 2, win1_2.index t d * S5000x16.size d ≤ (i d).val ∧ (i d).val < win1_2.index t d * S5000x16.size d + S5000x16.size d := by
  show i ∈ ((View.whole main_v47).slice (win1_2.rect t)).set ↔ _
  rw [View.set_slice_whole, Rect.mem_set_unit]
  exact Iff.rfl

/-- Every index of the result array is in some point's block: row r is in block r / 5000. -/
theorem rows_covered (i : S50000x16.Idx) :
    ∃ t : Fin cfg1.N, (cfg1.win 2).flush t = true ∧ i ∈ ((cfg1.win 2).blk t).view.set := by
  have hi0 : (i 0).val < 50000 := (i 0).isLt
  have hi1 : (i 1).val < 16 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, e20, e21⟩ := rowBlock_facts t
  refine ⟨t, flush1_2 t, ?_⟩
  rw [mem_rowBlock]
  intro d
  match d with
  | ⟨0, _⟩ => show win1_2.index t (0 : Fin 2) * 5000 ≤ (i 0).val ∧ (i 0).val < win1_2.index t (0 : Fin 2) * 5000 + 5000; omega
  | ⟨1, _⟩ => show win1_2.index t (1 : Fin 2) * 16 ≤ (i 1).val ∧ (i 1).val < win1_2.index t (1 : Fin 2) * 16 + 16; omega

/-- So after the ten points the result array is G, for any G that reads at (r, j) as the sum over k of
    max(a(r, k), 0) · x4(k, j). -/
theorem product_array (c : Dev nD)
    (a : (⟨S50000x64, .f32⟩ : BufTy).Contents (Elt Ideal)) (x4 : (⟨S64x16, .f32⟩ : BufTy).Contents (Elt Ideal))
    (G : (⟨S50000x16, .f32⟩ : BufTy).Contents (Elt Ideal))
    (hG : ∀ (r : Fin 50000) (j : Fin 16), G (ix2 r j) = ∑ k : Fin 64, max (a (ix2 r k)) (Ideal.ofBits .f32 0x00000000#32) * x4 (ix2 k j))
    (hA : V c main_v46 = a) (hW : V c main_arg4 = x4) :
    (dat1 V c).arrAt 2 cfg1.N = G :=
  (dat1 V c).arrAt_eq_of_cover 2 G (fun t _ => flushed_block V c a x4 G hG hA hW t) rows_covered

end Dense2

/-- After region 1 its output array is the product of the clamped input array with the weights. -/
theorem dense2_array (c : Dev nD) (x0 : (⟨Cert.ReferenceIdeal.S50000x64, .f32⟩ : BufTy).Contents (Elt Ideal))
    (x1 : (⟨Cert.ReferenceIdeal.S2x800000, .i32⟩ : BufTy).Contents (Elt Ideal))
    (x2 : (⟨Cert.ReferenceIdeal.S64x64, .f32⟩ : BufTy).Contents (Elt Ideal))
    (x3 : (⟨Cert.ReferenceIdeal.S64, .f32⟩ : BufTy).Contents (Elt Ideal))
    (x4 : (⟨Cert.ReferenceIdeal.S64x16, .f32⟩ : BufTy).Contents (Elt Ideal))
    (hA : V c main_v46 = val_main_v46 (F := Ideal) x0 x1 x2 x3) (hW : V c main_arg4 = x4) :
    (dat1 V c).arrAt 2 cfg1.N = val_main_v48 (F := Ideal) x0 x1 x2 x3 x4 := by
  refine Dense2.product_array V c (val_main_v46 (F := Ideal) x0 x1 x2 x3) x4 _ (fun r j => ?_) hA hW
  rw [Cert.ReferenceIdeal.ReadP.val_main_v48_apply]
  refine Finset.sum_congr rfl fun k _ => ?_
  have el : Cert.ReferenceIdeal.ReadP.lidx_main_v48 (ix2 r j) k = ix2 r k :=
    funext fun a => Fin.ext (by match a with | ⟨0, _⟩ => rfl | ⟨1, _⟩ => rfl)
  have er : Cert.ReferenceIdeal.ReadP.ridx_main_v48 (ix2 r j) k = ix2 k j :=
    funext fun a => Fin.ext (by match a with | ⟨0, _⟩ => rfl | ⟨1, _⟩ => rfl)
  rw [el, er, Cert.ReferenceIdeal.ReadP.val_main_v47_apply, Cert.ReferenceIdeal.ReadP.val_main_call1_v0_apply, Cert.ReferenceIdeal.ReadP.val_main_call1_cst_apply]
  rfl

end Cert.KernelIdeal.Val

end
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LogSoftmax.lean ====
/-
  The row-wise log-softmax. At grid point t the kernel takes rows 5000·t … of the logits, and for each row r
  writes x(r, j) − M(r) − log Σₖ exp(x(r, k) − M(r)), M(r) the row's maximum. The reference computes the same
  expression over the whole array (its maximum taken once more against −∞, which changes nothing).

  Both sides are brought to one function of a row of sixteen entries, `rowLsm`: the entry minus the row's
  maximum (the fold of `max` from −∞ = ⊥ over the sixteen lanes) minus the logarithm of the sum over the lanes of
  the exponentials of the shifted entries. An output entry depends only on its own row of the input, so a block of
  5000 rows of the output is computed from the same 5000 rows of the input: grid point t writes rows
  5000·t … 5000·t + 4999, every row r lies in the block of point r / 5000, and the ten blocks tile the array.
  The input array is never opened: the statement holds for whatever array the region finds.
-/
import proofs.«155629_j1168231104918_1_alg».proof.Proof.Gen.KernelIdeal.Frame
import proofs.«155629_j1168231104918_1_alg».proof.Proof.RefRead
import proofs.«155629_j1168231104918_1_alg».proof.Proof.LibKeepdims
import Idealize.ShloMosaic.Lib.Pipeline.Value
import Idealize.ShloMosaic.Lib.ValueIdx
import Idealize.ShloMosaic.PureOps.Ideal.Laws

set_option maxRecDepth 16384

noncomputable section

/-! ## One row -/

namespace Cert.LogSoftmaxRow

open Idealize.ShloMosaic Idealize.ShloMosaic.ValueIdx

/-- The log-softmax of one row of sixteen entries: entry `q` minus the row's maximum `M`, minus `log Σₖ exp (rowₖ − M)`. -/
def rowLsm (row : Fin 16 → EReal) (q : Fin 16) : EReal :=
  (row q - (Finset.univ : Finset (Fin 16)).fold max ⊥ row)
    - Ideal.log (∑ k : Fin 16, Ideal.exp (row k - (Finset.univ : Finset (Fin 16)).fold max ⊥ row))

/-- The f32 pattern of −∞ is the bottom of the extended reals, the neutral element of `max`. -/
theorem ofBits_negInf : Ideal.ofBits .f32 0xFF800000#32 = (⊥ : EReal) := by
  simp [Ideal.ofBits, Ideal.ieee]

/-- In an `[n, 16]` array reduced along its lanes, the row index `p` with lane `k` put back is `(p, k)`. -/
theorem lift_lane {n : ℕ} (h : (⟨2, ![n, 16]⟩ : Shape).Reduces [1] (⟨1, ![n]⟩ : Shape)) (p : Fin n)
    (k : Fin ((⟨2, ![n, 16]⟩ : Shape).size 1)) : h.lift (ix1 p) k = ix2 p (⟨k.val, k.isLt⟩ : Fin 16) := by
  funext c; apply Fin.ext
  fin_cases c <;> rfl

end Cert.LogSoftmaxRow

/-! ## The reference, over any array -/

namespace Cert.ReferenceIdeal.LogSoftmax

open Cert.ReferenceIdeal Cert.ReferenceIdeal.Gen Cert.ReferenceIdeal.ReadP
open Idealize.ShloMosaic Idealize.ShloMosaic.ValueIdx
open Cert.LogSoftmaxRow

/-- A vector of row values laid out as a column reads, at `(r, u)`, the value of row `r`. -/
theorem column_read {α : Type} (v : S50000.Idx → α) (r : Fin 50000) (u : Fin 1) :
    broadcastInDim S50000x1 ![0] bcast_S50000_S50000x1_0 v (ix2 r u) = v (ix1 r) :=
  broadcastInDim_apply _ bcast_S50000_S50000x1_0 v (ix2 r u) (ix1 r) (fun ax => match ax with
    | ⟨0, _⟩ => by show r.val = if (50000 : Nat) = 1 then 0 else r.val; rw [if_neg (by decide)])

/-- A column repeated along the sixteen lanes reads, at `(r, q)`, the column's entry of row `r`. -/
theorem lanes_read {α : Type} (v : S50000x1.Idx → α) (r : Fin 50000) (q : Fin 16) :
    broadcastInDim S50000x16 ![0, 1] bcast_S50000x1_S50000x16_0_1 v (ix2 r q) = v (ix2 r (0 : Fin 1)) :=
  broadcastInDim_apply _ bcast_S50000x1_S50000x16_0_1 v (ix2 r q) (ix2 r (0 : Fin 1)) (fun ax => match ax with
    | ⟨0, _⟩ => by show r.val = if (50000 : Nat) = 1 then 0 else r.val; rw [if_neg (by decide)]
    | ⟨1, _⟩ => by show 0 = if (1 : Nat) = 1 then 0 else q.val; rw [if_pos rfl])

/-- The reference's row maxima of an array `a`: the reduction of `max` along the lanes from −∞, then once more
    the maximum against a vector of −∞. -/
def refMax (a : FVec Ideal S50000x16 .f32) : FVec Ideal S50000 .f32 :=
  maximumf (broadcastInDim S50000 ![] bcast_S_S50000 (constant (F := Ideal) S_ .f32 0xFF800000#32))
    (Host.reduce FloatOps.maximumf a (constant (F := Ideal) S_ .f32 0xFF800000#32) reducesTo_S50000x16_S50000_d1 h_S_)

/-- The array with each row's maximum subtracted from the row. -/
def refShift (a : FVec Ideal S50000x16 .f32) : FVec Ideal S50000x16 .f32 :=
  subf a (broadcastInDim S50000x16 ![0, 1] bcast_S50000x1_S50000x16_0_1
    (broadcastInDim S50000x1 ![0] bcast_S50000_S50000x1_0 (refMax a)))

/-- The reference's log-softmax of an array `a`, one operation at a time: the shifted array minus, along each row,
    the logarithm of the row's sum (from 0) of the exponentials of the shifted entries. -/
def refLsm (a : FVec Ideal S50000x16 .f32) : FVec Ideal S50000x16 .f32 :=
  subf (refShift a) (broadcastInDim S50000x16 ![0, 1] bcast_S50000x1_S50000x16_0_1
    (Host.log (broadcastInDim S50000x1 ![0] bcast_S50000_S50000x1_0
      (Host.reduceAdd (Host.exp (refShift a)) (constant (F := Ideal) S_ .f32 0x00000000#32) reducesTo_S50000x16_S50000_d1 h_S_))))

/-- The reference's maximum of row `r` is the fold of `max` from ⊥ over the row's sixteen entries: the reduction is
    that fold from −∞ = ⊥, and the further maximum against ⊥ changes nothing. -/
theorem refMax_read (a : FVec Ideal S50000x16 .f32) (r : Fin 50000) :
    refMax a (ix1 r) = (Finset.univ : Finset (Fin 16)).fold max ⊥ (fun k => a (ix2 r k)) := by
  unfold refMax
  rw [maximumf_apply]
  have h1 : broadcastInDim S50000 ![] bcast_S_S50000 (constant (F := Ideal) S_ .f32 0xFF800000#32) (ix1 r) = (⊥ : EReal) :=
    ofBits_negInf
  have h2 : Host.reduce FloatOps.maximumf a (constant (F := Ideal) S_ .f32 0xFF800000#32) reducesTo_S50000x16_S50000_d1 h_S_ (ix1 r)
      = (Finset.univ : Finset (Fin 16)).fold max ⊥ (fun k => a (ix2 r k)) := by
    have hr : S50000x16.Reduces [1] S50000 := by decide
    refine (Host.reduce_eq_fold_single (FloatOps.maximumf (F := Ideal) (φ := .f32)) a _ reducesTo_S50000x16_S50000_d1 hr h_S_ (ix1 r)).trans ?_
    show (Finset.univ : Finset (Fin 16)).fold max (Ideal.ofBits .f32 0xFF800000#32) (fun k => a (hr.lift (ix1 r) k)) = _
    rw [ofBits_negInf]
    exact congrArg (fun f => Finset.fold max (⊥ : EReal) f (Finset.univ : Finset (Fin 16)))
      (funext fun k => congrArg a (lift_lane hr r k))
  rw [h1, h2]
  exact max_bot_left _

/-- The shifted array at `(r, k)` is the entry minus its row's maximum. -/
theorem refShift_read (a : FVec Ideal S50000x16 .f32) (r : Fin 50000) (k : Fin 16) :
    refShift a (ix2 r k) = a (ix2 r k) - (Finset.univ : Finset (Fin 16)).fold max ⊥ (fun k' => a (ix2 r k')) := by
  unfold refShift
  rw [subf_apply, lanes_read, column_read, refMax_read]

/-- The host's logarithm and exponential act entry by entry. -/
theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl

/-- The host's sum along the lanes from 0, at row `r`, is the sum of the row's sixteen entries. -/
theorem hostRowSum_read (y : FVec Ideal S50000x16 .f32) (r : Fin 50000) :
    Host.reduceAdd y (constant (F := Ideal) S_ .f32 0x00000000#32) reducesTo_S50000x16_S50000_d1 h_S_ (ix1 r)
      = ∑ k : Fin 16, y (ix2 r k) := by
  have hr : S50000x16.Reduces [1] S50000 := by decide
  simp only [Host.reduceAdd, Ideal.hostReduceAdd_def]
  rw [Ideal.hostReduceAdd_single reducesTo_S50000x16_S50000_d1 hr]
  show Ideal.ofBits .f32 0x00000000#32 + _ = _
  rw [Ideal.ofBits_zero_f32, zero_add]
  exact Finset.sum_congr rfl fun k _ => congrArg y (lift_lane hr r k)

/-- The reference's log-softmax of `a` at `(r, q)` is the log-softmax of row `r` of `a`, at lane `q`. -/
theorem refLsm_read (a : FVec Ideal S50000x16 .f32) (r : Fin 50000) (q : Fin 16) :
    refLsm a (ix2 r q) = rowLsm (fun k => a (ix2 r k)) q := by
  unfold refLsm
  rw [subf_apply, refShift_read, lanes_read, hostLog_apply, column_read, hostRowSum_read]
  unfold rowLsm
  refine congrArg (fun s : EReal => _ - Ideal.log s) (Finset.sum_congr rfl fun k _ => ?_)
  rw [hostExp_apply, refShift_read]

/-- The reference's result is that log-softmax of the array its log-softmax call receives, whatever that array is. -/
theorem reference_eq (x0 : (⟨S50000x64, .f32⟩ : BufTy).Contents (Elt Ideal))
    (x1 : (⟨S2x800000, .i32⟩ : BufTy).Contents (Elt Ideal))
    (x2 : (⟨S64x64, .f32⟩ : BufTy).Contents (Elt Ideal))
    (x3 : (⟨S64, .f32⟩ : BufTy).Contents (Elt Ideal))
    (x4 : (⟨S64x16, .f32⟩ : BufTy).Contents (Elt Ideal))
    (x5 : (⟨S16, .f32⟩ : BufTy).Contents (Elt Ideal)) :
    val_main_v88 (F := Ideal) x0 x1 x2 x3 x4 x5 = refLsm (val_main_v87 (F := Ideal) x0 x1 x2 x3 x4 x5) := rfl

end Cert.ReferenceIdeal.LogSoftmax

/-! ## The kernel: one block, then the array -/

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.ReferenceIdeal.ReadP (val_main_v7 val_main_v46 val_main_v47 val_main_v48 val_main_v87 val_main_v88)
open Cert.LogSoftmaxRow Cert.LibKeepdims

variable (V : (c : Dev nD) → (b : Ref sig .tc) → Buf (Elt Ideal) ((c : Thread nD τ).loc b))

/-- The kernel's maximum along the lanes from −∞, at row `p`, is the fold of `max` from ⊥ over the row's entries. -/
theorem rowMax_read {n : ℕ} (v : FVec Ideal ⟨2, ![n, 16]⟩ .f32) (h : (⟨2, ![n, 16]⟩ : Shape).Reduces [1] (⟨1, ![n]⟩ : Shape))
    (hφ : FKind.Formats .f32) (hacc : (0xFF800000#32 : BitVec 32) = FKind.maximumf.neutral .f32 hφ) (p : Fin n) :
    multiReduction .maximumf [1] ⟨1, ![n]⟩ v 0xFF800000#32 h hφ hacc (ix1 p)
      = (Finset.univ : Finset (Fin 16)).fold max ⊥ (fun k => v (ix2 p k)) := by
  rw [Ideal.multiReduction_maximumf_single]
  show (Finset.univ : Finset (Fin 16)).fold max (Ideal.ofBits .f32 0xFF800000#32) (fun k => v (h.lift (ix1 p) k)) = _
  rw [ofBits_negInf]
  exact congrArg (fun f => Finset.fold max (⊥ : EReal) f (Finset.univ : Finset (Fin 16)))
    (funext fun k => congrArg v (lift_lane h p k))

/-- The kernel's sum along the lanes, at row `p`, is the sum of the row's sixteen entries. -/
theorem rowSum_read {n : ℕ} (v : FVec Ideal ⟨2, ![n, 16]⟩ .f32) (h : (⟨2, ![n, 16]⟩ : Shape).Reduces [1] (⟨1, ![n]⟩ : Shape))
    (hφ : FKind.Formats .f32) (hacc : (0x00000000#32 : BitVec 32) = FKind.add.neutral .f32 hφ) (p : Fin n) :
    multiReduction .add [1] ⟨1, ![n]⟩ v 0x00000000#32 h hφ hacc (ix1 p) = ∑ k : Fin 16, v (ix2 p k) := by
  rw [Ideal.multiReduction_add_single]
  show ∑ k : Fin 16, v (h.lift (ix1 p) k) = _
  exact Finset.sum_congr rfl fun k _ => congrArg v (lift_lane h p k)

/-- What the body computes from a block `x` of 5000 rows, at `(p, q)`: the log-softmax of row `p` of the block, at lane
    `q`. The row maximum and the row sum are kept as `[5000, 1]` columns and repeated along the lanes; each reads back
    the value of row `p`. -/
theorem pay_apply (x : Vec Ideal S5000x16 .f32) (p : Fin 5000) (q : Fin 16) :
    (k2_pay1 (F := Ideal) x) (ix2 p q) = rowLsm (fun k => x (ix2 p k)) q := by
  unfold k2_pay1
  simp only [shapeCast_self]
  rw [subf_apply, subf_apply, broadcastTo_a1_ab_apply, broadcastTo_a1_ab_apply, shapeCast_a_a1_apply]
  unfold rowLsm
  refine congrArg₂ (fun u v : EReal => u - v) (congrArg (fun m : EReal => x (ix2 p q) - m) (rowMax_read x _ _ _ p)) ?_
  refine congrArg Ideal.log ?_
  refine (shapeCast_a_a1_apply _ _ p 0).trans ?_
  refine (rowSum_read _ _ _ _ p).trans ?_
  refine Finset.sum_congr rfl fun k _ => ?_
  refine congrArg (fun m : EReal => Ideal.exp (x (ix2 p k) - m)) ?_
  refine (broadcastTo_a1_ab_apply _ _ p k).trans ?_
  refine (shapeCast_a_a1_apply _ _ p 0).trans ?_
  exact rowMax_read x _ _ _ p

theorem zero_offsets : (![0, 0] : Fin 2 → Nat) = fun _ => 0 := funext fun a => by fin_cases a <;> rfl

/-- Both windows' index maps send grid point `t` to the block `(t, 0)`: rows `5000·t …`, all sixteen lanes. -/
theorem index_rows : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- What grid point `t` writes back is block `t` of any array `G` whose rows are the log-softmax of the rows of the
    array `a` the region finds at its input: entry `(p, q)` of the block is entry `(5000·t + p, q)` of the array, for
    the input window and the output window alike, and an output row depends only on the same input row. -/
theorem flushed_rows (c : Dev nD) (t : Fin cfg2.N)
    (a G : (⟨2, ![50000, 16]⟩ : Shape).Idx → EReal) (hA : V c main_v63 = a)
    (hG : ∀ (r : Fin 50000) (q : Fin 16), G (ix2 r q) = rowLsm (fun k => a (ix2 r k)) q) :
    (dat2 V c).flushed 1 t = ((cfg2.win 1).blk t).view.read (Elt Ideal) G := by
  show (cfg2.win 1).cut (grid2.coords t) ((dat2 V c).after 1 t) = _
  rw [after2_1]
  unfold out2_1
  rw [View.canon_unit_zero zero_offsets]
  simp only [View.ld_unit_zero (S := S5000x16) zero_offsets]
  obtain ⟨e0, e1, e2, e3⟩ := index_rows t
  funext j
  obtain ⟨p, q, rfl⟩ : ∃ (p : Fin 5000) (q : Fin 16), j = ix2 p q := ⟨j 0, j 1, eq_ix2 (n0 := 5000) (n1 := 16) j⟩
  have hN : cfg2.N = 10 := N_2
  have hrow : t.val * 5000 + p.val < 50000 := by have := t.isLt; have := p.isLt; omega
  show k2_pay1 (F := Ideal) (iblk2 V c 0 t) (ix2 p q) = G (((cfg2.win 1).blk t).view.emb (ix2 p q))
  refine (pay_apply (iblk2 V c 0 t) p q).trans ?_
  have hemb : ((cfg2.win 1).blk t).view.emb (ix2 p q) = ix2 (⟨t.val * 5000 + p.val, hrow⟩ : Fin 50000) q := by
    funext ax; apply Fin.ext
    match ax with
    | ⟨0, _⟩ => show win2_1.index t (0 : Fin 2) * 5000 + 1 * p.val = t.val * 5000 + p.val; rw [e2]; omega
    | ⟨1, _⟩ => show win2_1.index t (1 : Fin 2) * 16 + 1 * q.val = q.val; rw [e3]; omega
  rw [hemb, hG]
  refine congrArg (fun row => rowLsm row q) (funext fun k => ?_)
  show V c main_v63 (((cfg2.win 0).blk t).view.emb (ix2 p k)) = a _
  refine (congrFun hA _).trans (congrArg a ?_)
  funext ax; apply Fin.ext
  match ax with
  | ⟨0, _⟩ => show win2_0.index t (0 : Fin 2) * 5000 + 1 * p.val = t.val * 5000 + p.val; rw [e0]; omega
  | ⟨1, _⟩ => show win2_0.index t (1 : Fin 2) * 16 + 1 * k.val = k.val; rw [e1]; omega

/-- An index of the array is in point `t`'s block iff each coordinate is in the block's range on its axis. -/
theorem mem_rows (t : Fin cfg2.N) (i : S50000x16.Idx) :
    i ∈ ((cfg2.win 1).blk t).view.set ↔ ∀ ax : Fin 2, win2_1.index t ax * S5000x16.size ax ≤ (i ax).val ∧ (i ax).val < win2_1.index t ax * S5000x16.size ax + S5000x16.size ax := by
  show i ∈ ((View.whole main_v64).slice (win2_1.rect t)).set ↔ _
  rw [View.set_slice_whole, Rect.mem_set_unit]
  exact Iff.rfl

/-- Every index of the array is in some point's block: row `r` is in the block of point `r / 5000`. -/
theorem cover_rows (i : S50000x16.Idx) :
    ∃ t : Fin cfg2.N, (cfg2.win 1).flush t = true ∧ i ∈ ((cfg2.win 1).blk t).view.set := by
  have hi0 : (i 0).val < 50000 := (i 0).isLt
  have hi1 : (i 1).val < 16 := (i 1).isLt
  have hN : cfg2.N = 10 := N_2
  have ht : (i 0).val / 5000 < cfg2.N := by rw [hN]; omega
  obtain ⟨e0, e1, e2, e3⟩ := index_rows ⟨(i 0).val / 5000, ht⟩
  refine ⟨⟨(i 0).val / 5000, ht⟩, flush2_1 _, ?_⟩
  rw [mem_rows]
  intro ax
  match ax with
  | ⟨0, _⟩ =>
    show win2_1.index ⟨(i 0).val / 5000, ht⟩ (0 : Fin 2) * 5000 ≤ (i 0).val ∧ (i 0).val < win2_1.index ⟨(i 0).val / 5000, ht⟩ (0 : Fin 2) * 5000 + 5000
    rw [e2]; show (i 0).val / 5000 * 5000 ≤ (i 0).val ∧ (i 0).val < (i 0).val / 5000 * 5000 + 5000; omega
  | ⟨1, _⟩ =>
    show win2_1.index ⟨(i 0).val / 5000, ht⟩ (1 : Fin 2) * 16 ≤ (i 1).val ∧ (i 1).val < win2_1.index ⟨(i 0).val / 5000, ht⟩ (1 : Fin 2) * 16 + 16
    rw [e3]; omega

/-- So the output array after the region is any array whose rows are the log-softmax of the input array's rows. -/
theorem array_rows (c : Dev nD) (a G : (⟨2, ![50000, 16]⟩ : Shape).Idx → EReal) (hA : V c main_v63 = a)
    (hG : ∀ (r : Fin 50000) (q : Fin 16), G (ix2 r q) = rowLsm (fun k => a (ix2 r k)) q) :
    (dat2 V c).arrAt 1 cfg2.N = G :=
  (dat2 V c).arrAt_eq_of_cover 1 G (fun t _ => flushed_rows V c t a G hA hG) cover_rows

/-- After region 2 its output array is the reference's log-softmax of the array it finds at its input. -/
theorem logSoftmax_array (c : Dev nD) (x0 : (⟨Cert.ReferenceIdeal.S50000x64, .f32⟩ : BufTy).Contents (Elt Ideal))
    (x1 : (⟨Cert.ReferenceIdeal.S2x800000, .i32⟩ : BufTy).Contents (Elt Ideal))
    (x2 : (⟨Cert.ReferenceIdeal.S64x64, .f32⟩ : BufTy).Contents (Elt Ideal))
    (x3 : (⟨Cert.ReferenceIdeal.S64, .f32⟩ : BufTy).Contents (Elt Ideal))
    (x4 : (⟨Cert.ReferenceIdeal.S64x16, .f32⟩ : BufTy).Contents (Elt Ideal))
    (x5 : (⟨Cert.ReferenceIdeal.S16, .f32⟩ : BufTy).Contents (Elt Ideal))
    (hA : V c main_v63 = val_main_v87 (F := Ideal) x0 x1 x2 x3 x4 x5) :
    (dat2 V c).arrAt 1 cfg2.N = val_main_v88 (F := Ideal) x0 x1 x2 x3 x4 x5 := by
  refine array_rows V c (val_main_v87 (F := Ideal) x0 x1 x2 x3 x4 x5) (val_main_v88 (F := Ideal) x0 x1 x2 x3 x4 x5) hA
    fun r q => ?_
  exact (congrFun (Cert.ReferenceIdeal.LogSoftmax.reference_eq x0 x1 x2 x3 x4 x5) (ix2 r q)).trans
    (Cert.ReferenceIdeal.LogSoftmax.refLsm_read _ r q)

end Cert.KernelIdeal.Val

end
-- ==== Proof.KernelValue.lean ====
/-
  What the kernel program leaves in its result buffer, as a function of its six arguments. Following the program
  through its segments: the first region leaves x·W₁; the first stretch of host operations aggregates it over the
  edges and adds b₁; the second region clamps at zero and multiplies by W₂; the second stretch aggregates again and
  adds b₂; the third region takes the row-wise log-softmax. At each boundary the buffer the next segment reads holds
  the corresponding stage of the reference read one operation at a time, so the result is the reference's last stage.
-/
import proofs.«155629_j1168231104918_1_alg».proof.Proof.KRun
import proofs.«155629_j1168231104918_1_alg».proof.Proof.Walk
import proofs.«155629_j1168231104918_1_alg».proof.Proof.Norm
import proofs.«155629_j1168231104918_1_alg».proof.Proof.Agg
import proofs.«155629_j1168231104918_1_alg».proof.Proof.RefGlue
import proofs.«155629_j1168231104918_1_alg».proof.Proof.Dense1
import proofs.«155629_j1168231104918_1_alg».proof.Proof.Dense2
import proofs.«155629_j1168231104918_1_alg».proof.Proof.LogSoftmax

set_option maxRecDepth 16384

noncomputable section

namespace Cert.KernelIdeal.Val

open Cert.KernelIdeal Cert.KernelIdeal.Gen
open Idealize.ShloMosaic Idealize.ShloMosaic.TcCoe Idealize.SL.Sem
open Cert.ReferenceIdeal.ReadP (val_main_v3 val_main_v6 val_main_v7 val_main_v30 val_main_v46 val_main_v48 val_main_v71 val_main_v87 val_main_v88)

variable (m : (ℓ : Loc nD τ sig) → Buf (Elt Ideal) ℓ) (ρ : Dev nD → PrngReg)

/-- After the first region: the first product. -/
theorem W4_dense (c : Dev nD) :
    (W4 m ρ c (Proc.devRef .tc main_v30) : S50000x64.Idx → Elt Ideal .f32)
      = val_main_v7 (F := Ideal) (m ((c : Thread nD τ).loc main_arg0)) (m ((c : Thread nD τ).loc main_arg2)) :=
  (W4_arr m ρ c 2).trans (dense1_array (V3 m ρ) c _ _ (W3_arg0 m ρ c) (W3_arg2 m ρ c))

/-- When the second region is entered: the first aggregation. -/
theorem W5_stage (c : Dev nD) :
    (W5 m ρ c (Proc.devRef .tc main_v46) : S50000x64.Idx → Elt Ideal .f32)
      = val_main_v46 (F := Ideal) (m ((c : Thread nD τ).loc main_arg0)) (m ((c : Thread nD τ).loc main_arg1))
          (m ((c : Thread nD τ).loc main_arg2)) (m ((c : Thread nD τ).loc main_arg3)) := by
  rw [W5_aggregate m ρ c, W4_nrm m ρ c, W4_src m ρ c, W4_dst m ρ c, W3_nrm m ρ c, W3_src m ρ c, W3_dst m ρ c,
    W4_dense m ρ c, W4_arg3 m ρ c]
  exact (refAggregate64 _ _ _ _).symm

/-- After the second region: the second product, of the clamped aggregation. -/
theorem W6_dense (c : Dev nD) :
    (W6 m ρ c (Proc.devRef .tc main_v47) : S50000x16.Idx → Elt Ideal .f32)
      = val_main_v48 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) :=
  (W6_arr m ρ c 2).trans (dense2_array (V5 m ρ) c _ _ _ _ _ (W5_stage m ρ c) (W5_arg4 m ρ c))

/-- When the third region is entered: the second aggregation. -/
theorem W7_stage (c : Dev nD) :
    (W7 m ρ c (Proc.devRef .tc main_v63) : S50000x16.Idx → Elt Ideal .f32)
      = val_main_v87 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  rw [W7_aggregate m ρ c, W6_nrm m ρ c, W6_src m ρ c, W6_dst m ρ c, W3_nrm m ρ c, W3_src m ρ c, W3_dst m ρ c,
    W6_dense m ρ c, W6_arg5 m ρ c, ← refWeights_again]
  exact (refAggregate16 _ _ _ _ _ _).symm

/-- After the third region: the log-softmax, the reference's last stage. -/
theorem W8_result (c : Dev nD) :
    (W8 m ρ c (Proc.devRef .tc main_v64) : S50000x16.Idx → Elt Ideal .f32)
      = val_main_v88 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) :=
  (W8_arr m ρ c 1).trans (logSoftmax_array (V7 m ρ) c _ _ _ _ _ _ (W7_stage m ρ c))

/-- The kernel program's run: it terminates, its result buffer ends at the reference's last stage of the six
    arguments, and the arguments end as launched. -/
theorem run : θ_run (defs (F := Ideal)) (onTc (τ := τ) (main (F := Ideal))) ⟨m, fun _ => 0, ρ⟩ (fun r => ∀ c : Dev nD,
      r.2.mem ((c.tc : Thread nD τ).loc main_v64)
          = val_main_v88 (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c => ⟨(h c).1.trans (W8_result m ρ c), (h c).2⟩)
    (Cert.KernelIdeal.RunV.run (F := Ideal) m ρ)

end Cert.KernelIdeal.Val

end
-- ==== Proof.RefStageA.lean ====
/-
  The first stretch of the reference's operations, read from an arbitrary valuation of the buffers: the two index
  vectors, the first product and the edge weights, as the stages of the reference read one operation at a time.
-/
import proofs.«155629_j1168231104918_1_alg».proof.Proof.RefRun
import proofs.«155629_j1168231104918_1_alg».proof.Proof.RefRead

set_option maxRecDepth 16384

noncomputable section

namespace Cert.ReferenceIdeal.RunH

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- A stretch of host operations leaves a buffer none of them writes as it was. -/
macro "stretch_keeps" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

set_option maxHeartbeats 4000000 in
/-- Stretch A leaves the source index vector. -/
theorem opsA_src (W : Valuation τ sig (Elt F)) (x1 : (⟨S2x800000, .i32⟩ : BufTy).Contents (Elt F))
    (h1 : (W (Proc.devRef .tc main_arg1) : S2x800000.Idx → Elt F .i32) = x1) :
    (after opsA W (Proc.devRef .tc main_v3) : S850000.Idx → Elt F .i32) = val_main_v3 (F := F) x1 := by
  after_results
  rw [h1]
  rfl

set_option maxHeartbeats 4000000 in
/-- Stretch A leaves the destination index vector. -/
theorem opsA_dst (W : Valuation τ sig (Elt F)) (x1 : (⟨S2x800000, .i32⟩ : BufTy).Contents (Elt F))
    (h1 : (W (Proc.devRef .tc main_arg1) : S2x800000.Idx → Elt F .i32) = x1) :
    (after opsA W (Proc.devRef .tc main_v6) : S850000.Idx → Elt F .i32) = val_main_v6 (F := F) x1 := by
  after_results
  rw [h1]
  rfl

set_option maxHeartbeats 4000000 in
/-- Stretch A leaves the first product. -/
theorem opsA_dense (W : Valuation τ sig (Elt F)) (x0 : (⟨S50000x64, .f32⟩ : BufTy).Contents (Elt F))
    (x2 : (⟨S64x64, .f32⟩ : BufTy).Contents (Elt F))
    (h0 : (W (Proc.devRef .tc main_arg0) : S50000x64.Idx → Elt F .f32) = x0)
    (h2 : (W (Proc.devRef .tc main_arg2) : S64x64.Idx → Elt F .f32) = x2) :
    (after opsA W (Proc.devRef .tc main_v7) : S50000x64.Idx → Elt F .f32) = val_main_v7 (F := F) x0 x2 := by
  after_results
  rw [h0, h2]
  rfl

set_option maxHeartbeats 8000000 in
/-- Stretch A leaves the edge weights. -/
theorem opsA_weights (W : Valuation τ sig (Elt F)) (x1 : (⟨S2x800000, .i32⟩ : BufTy).Contents (Elt F))
    (h1 : (W (Proc.devRef .tc main_arg1) : S2x800000.Idx → Elt F .i32) = x1) :
    (after opsA W (Proc.devRef .tc main_v30) : S850000.Idx → Elt F .f32) = val_main_v30 (F := F) x1 := by
  after_results
  rw [h1]
  rfl

/-- Stretch A writes none of the argument buffers the later stretches still read. -/
theorem opsA_keeps (W : Valuation τ sig (Elt F)) :
    after opsA W (Proc.devRef .tc main_arg3) = W (Proc.devRef .tc main_arg3)
    ∧ after opsA W (Proc.devRef .tc main_arg4) = W (Proc.devRef .tc main_arg4)
    ∧ after opsA W (Proc.devRef .tc main_arg5) = W (Proc.devRef .tc main_arg5) := by
  refine ⟨?_, ?_, ?_⟩
  · stretch_keeps opsA
  · stretch_keeps opsA
  · stretch_keeps opsA

end Cert.ReferenceIdeal.RunH

end
-- ==== Proof.RefStageDEF.lean ====
/-
  The last three stretches of the reference's operations, each read from an arbitrary valuation of the buffers: the
  edge weights computed again from the two index vectors; the second aggregation; the row-wise log-softmax.

  Each stretch is a list of operations, every one writing one buffer as a function of buffers written before it or
  found at entry. Reading the list back from its last operation gives the result buffer as the composed term of
  the buffers found at entry; with those replaced by what the hypotheses say they hold, the term is the reference's
  stage of the same name, operation for operation. Where an operation belongs to an inlined callee its operands and
  result pass through the identification of a buffer's contents with contents of the callee's declared type, there
  and back: that is the identity, and is removed before the two terms are compared. The inputs of a stretch (the
  index vectors, the dense layer's result, the weights of the edges, the aggregated array) stay folded throughout.
-/
import proofs.«155629_j1168231104918_1_alg».proof.Proof.RefRun
import proofs.«155629_j1168231104918_1_alg».proof.Proof.RefRead

set_option maxRecDepth 16384

noncomputable section

namespace Cert.ReferenceIdeal.RunH

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Contents moved to a typed reference's buffer type and back are the contents. -/
theorem ofBuf_toBuf {Val : EltTy → Type} {T : BufTy} (x : TRef sig T) (v : T.Contents Val) : x.ofBuf (x.toBuf v) = v := by
  obtain ⟨r, h, h1, h2⟩ := x
  subst h
  rfl

set_option maxHeartbeats 4000000 in
/-- Stretch D leaves the edge weights, computed again from the index vectors it finds. -/
theorem opsD_weights (W : Valuation τ sig (Elt F)) (x1 : (⟨S2x800000, .i32⟩ : BufTy).Contents (Elt F))
    (h3 : (W (Proc.devRef .tc main_v3) : S850000.Idx → Elt F .i32) = val_main_v3 (F := F) x1)
    (h6 : (W (Proc.devRef .tc main_v6) : S850000.Idx → Elt F .i32) = val_main_v6 (F := F) x1) :
    (after opsD W (Proc.devRef .tc main_v71) : S850000.Idx → Elt F .f32) = val_main_v71 (F := F) x1 := by
  have e0 : ∀ v : (⟨S_, .f32⟩ : BufTy).Contents (Elt F), (TRef.of (T := ⟨S_, .f32⟩) main_cst_12).ofBuf v = v := fun v => rfl
  have e1 : ∀ v : (⟨S50000, .i1⟩ : BufTy).Contents (Elt F), (TRef.of (T := ⟨S50000, .i1⟩) main_v54).ofBuf v = v := fun v => rfl
  have e2 : ∀ v : (⟨S50000, .f32⟩ : BufTy).Contents (Elt F), (TRef.of (T := ⟨S50000, .f32⟩) main_v55).ofBuf v = v := fun v => rfl
  after_results
  rw [h3, h6]
  simp only [ofBuf_toBuf, e0, e1, e2]
  simp only [val_main_v71, val_main_v70, val_main_v69, val_main_v68, val_main_v67, val_main_v66, val_main_c_16, val_main_v65,
    val_main_v64, val_main_c_15, val_main_v63, val_main_v62, val_main_v61, val_main_v60, val_main_v59, val_main_c_14,
    val_main_v58, val_main_v57, val_main_c_13, val_main_v56, val_main_call2_v1, val_main_call2_v0, val_main_cst_12,
    val_main_v55, val_main_v54, val_main_v53, val_main_cst_11, val_main_v52, val_main_v51, val_main_v50, val_main_cst_10,
    val_main_v49, val_main_cst_9]

/-- Stretch D writes none of the buffers the later stretches still read. -/
theorem opsD_keeps (W : Valuation τ sig (Elt F)) :
    after opsD W (Proc.devRef .tc main_v3) = W (Proc.devRef .tc main_v3)
    ∧ after opsD W (Proc.devRef .tc main_v6) = W (Proc.devRef .tc main_v6)
    ∧ after opsD W (Proc.devRef .tc main_v48) = W (Proc.devRef .tc main_v48)
    ∧ after opsD W (Proc.devRef .tc main_arg5) = W (Proc.devRef .tc main_arg5) := by
  refine ⟨?_, ?_, ?_, ?_⟩ <;>
  · refine StableHlo.after_of_forall_not_mem _ _ (List.forall_iff_forall_mem.mp ?_)
    simp only [opsD, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

set_option maxHeartbeats 4000000 in
/-- Stretch E leaves the second aggregation. -/
theorem opsE_aggregate (W : Valuation τ sig (Elt F))
    (x0 : (⟨S50000x64, .f32⟩ : BufTy).Contents (Elt F)) (x1 : (⟨S2x800000, .i32⟩ : BufTy).Contents (Elt F))
    (x2 : (⟨S64x64, .f32⟩ : BufTy).Contents (Elt F)) (x3 : (⟨S64, .f32⟩ : BufTy).Contents (Elt F))
    (x4 : (⟨S64x16, .f32⟩ : BufTy).Contents (Elt F)) (x5 : (⟨S16, .f32⟩ : BufTy).Contents (Elt F))
    (h71 : (W (Proc.devRef .tc main_v71) : S850000.Idx → Elt F .f32) = val_main_v71 (F := F) x1)
    (h3 : (W (Proc.devRef .tc main_v3) : S850000.Idx → Elt F .i32) = val_main_v3 (F := F) x1)
    (h6 : (W (Proc.devRef .tc main_v6) : S850000.Idx → Elt F .i32) = val_main_v6 (F := F) x1)
    (h48 : (W (Proc.devRef .tc main_v48) : S50000x16.Idx → Elt F .f32) = val_main_v48 (F := F) x0 x1 x2 x3 x4)
    (h5 : (W (Proc.devRef .tc main_arg5) : S16.Idx → Elt F .f32) = x5) :
    (after opsE W (Proc.devRef .tc main_v87) : S50000x16.Idx → Elt F .f32) = val_main_v87 (F := F) x0 x1 x2 x3 x4 x5 := by
  after_results
  rw [h71, h3, h6, h48, h5]
  rfl

set_option maxHeartbeats 4000000 in
/-- Stretch F leaves the log-softmax of the array it finds. -/
theorem opsF_logSoftmax (W : Valuation τ sig (Elt F))
    (x0 : (⟨S50000x64, .f32⟩ : BufTy).Contents (Elt F)) (x1 : (⟨S2x800000, .i32⟩ : BufTy).Contents (Elt F))
    (x2 : (⟨S64x64, .f32⟩ : BufTy).Contents (Elt F)) (x3 : (⟨S64, .f32⟩ : BufTy).Contents (Elt F))
    (x4 : (⟨S64x16, .f32⟩ : BufTy).Contents (Elt F)) (x5 : (⟨S16, .f32⟩ : BufTy).Contents (Elt F))
    (h87 : (W (Proc.devRef .tc main_v87) : S50000x16.Idx → Elt F .f32) = val_main_v87 (F := F) x0 x1 x2 x3 x4 x5) :
    (after opsF W (Proc.devRef .tc main_v88) : S50000x16.Idx → Elt F .f32) = val_main_v88 (F := F) x0 x1 x2 x3 x4 x5 := by
  have e87 : ∀ v : (⟨S50000x16, .f32⟩ : BufTy).Contents (Elt F), (TRef.of (T := ⟨S50000x16, .f32⟩) main_v87).ofBuf v = v := fun v => rfl
  after_results
  rw [h87]
  simp only [ofBuf_toBuf, e87]
  simp only [val_main_v88, val_main_call3_v10, val_main_call3_v9, val_main_call3_v8, val_main_call3_v7, val_main_call3_cst_1,
    val_main_call3_v6, val_main_call3_v5, val_main_call3_v4, val_main_call3_v3, val_main_call3_v2, val_main_call3_v1,
    val_main_call3_cst_0, val_main_call3_v0, val_main_call3_cst]

end Cert.ReferenceIdeal.RunH

end
-- ==== Proof.RefStages.lean ====
/-
  The reference's run, read stretch by stretch. The reference is a straight line of 131 host operations; after each of
  six consecutive stretches the buffers later stretches read hold a named function of what the stretch found: the two
  index vectors, the first product and the edge weights; the first aggregation; the clamp at zero and the second
  product; the edge weights again; the second aggregation; the log-softmax. Composed, the result buffer ends at the
  last stage of the reference read one operation at a time, as a function of the six arguments.

  A stretch's result depends only on what the buffers it reads hold when it is entered, so each stretch is stated
  from an arbitrary valuation of the buffers: what it leaves at the buffers later stretches read, as the matching
  stage of the reference applied to what it found, and that it leaves every other buffer a later stretch reads as it
  was. The first, fourth, fifth and sixth stretches are read in the two modules imported below; the second (the first aggregation:
  out(v, f) = Σ_{e : dst e = v} w(e) · h(src e, f) + b(f), a negative index first wrapped by adding the number of
  nodes) and the third (max(·, 0), then the product with the second weights) are read here. No operation writes an
  argument buffer, so the six arguments end as launched.
-/
import proofs.«155629_j1168231104918_1_alg».proof.Proof.RefRun
import proofs.«155629_j1168231104918_1_alg».proof.Proof.RefRead
import proofs.«155629_j1168231104918_1_alg».proof.Proof.RefStageA
import proofs.«155629_j1168231104918_1_alg».proof.Proof.RefStageDEF

set_option maxRecDepth 16384

noncomputable section

namespace Cert.ReferenceIdeal.RunH

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- A stretch of operations leaves a buffer none of them writes as it was. -/
macro "stretch_keeps" ops:ident : tactic => `(tactic| (
  refine after_of_forall_not_mem _ _ (List.forall_iff_forall_mem.mp ?_)
  simp only [$ops:ident, List.Forall, nullary_writes, unary_writes, binary_writes,
    ternary_writes, quaternary_writes, reshape_writes, binaryIndexed_writes, Finset.mem_singleton]
  repeat' apply And.intro
  all_goals exact devRef_ne_of_ne (by decide)))

/-! ## The second stretch: the first aggregation -/

set_option maxHeartbeats 4000000 in
/-- Stretch B leaves the first aggregation: the rows of the first product at the wrapped source indices, each times
    its edge's weight, summed into the destination rows of a zero array, plus the bias along every row. -/
theorem opsB_aggregate (W : Valuation τ sig (Elt F))
    (x0 : (⟨S50000x64, .f32⟩ : BufTy).Contents (Elt F)) (x1 : (⟨S2x800000, .i32⟩ : BufTy).Contents (Elt F))
    (x2 : (⟨S64x64, .f32⟩ : BufTy).Contents (Elt F)) (x3 : (⟨S64, .f32⟩ : BufTy).Contents (Elt F))
    (h30 : (W (Proc.devRef .tc main_v30) : S850000.Idx → Elt F .f32) = val_main_v30 (F := F) x1)
    (h3 : (W (Proc.devRef .tc main_v3) : S850000.Idx → Elt F .i32) = val_main_v3 (F := F) x1)
    (h6 : (W (Proc.devRef .tc main_v6) : S850000.Idx → Elt F .i32) = val_main_v6 (F := F) x1)
    (h7 : (W (Proc.devRef .tc main_v7) : S50000x64.Idx → Elt F .f32) = val_main_v7 (F := F) x0 x2)
    (ha3 : (W (Proc.devRef .tc main_arg3) : S64.Idx → Elt F .f32) = x3) :
    (after opsB W (Proc.devRef .tc main_v46) : S50000x64.Idx → Elt F .f32) = val_main_v46 (F := F) x0 x1 x2 x3 := by
  after_results
  rw [h30, h3, h6, h7, ha3]
  rfl

/-- Stretch B writes none of the buffers the later stretches still read. -/
theorem opsB_keeps (W : Valuation τ sig (Elt F)) :
    after opsB W (Proc.devRef .tc main_v3) = W (Proc.devRef .tc main_v3)
    ∧ after opsB W (Proc.devRef .tc main_v6) = W (Proc.devRef .tc main_v6)
    ∧ after opsB W (Proc.devRef .tc main_arg4) = W (Proc.devRef .tc main_arg4)
    ∧ after opsB W (Proc.devRef .tc main_arg5) = W (Proc.devRef .tc main_arg5) := by
  refine ⟨?_, ?_, ?_, ?_⟩ <;> stretch_keeps opsB

/-! ## The third stretch: the clamp at zero and the second product -/

set_option maxHeartbeats 4000000 in
/-- Stretch C leaves the second product: the first aggregation clamped below at zero, times the second weights. -/
theorem opsC_dense (W : Valuation τ sig (Elt F))
    (x0 : (⟨S50000x64, .f32⟩ : BufTy).Contents (Elt F)) (x1 : (⟨S2x800000, .i32⟩ : BufTy).Contents (Elt F))
    (x2 : (⟨S64x64, .f32⟩ : BufTy).Contents (Elt F)) (x3 : (⟨S64, .f32⟩ : BufTy).Contents (Elt F)) (x4 : (⟨S64x16, .f32⟩ : BufTy).Contents (Elt F))
    (h46 : (W (Proc.devRef .tc main_v46) : S50000x64.Idx → Elt F .f32) = val_main_v46 (F := F) x0 x1 x2 x3)
    (h4 : (W (Proc.devRef .tc main_arg4) : S64x16.Idx → Elt F .f32) = x4) :
    (after opsC W (Proc.devRef .tc main_v48) : S50000x16.Idx → Elt F .f32) = val_main_v48 (F := F) x0 x1 x2 x3 x4 := by
  after_results
  rw [h46, h4]
  rfl

/-- Stretch C writes none of the buffers the later stretches still read. -/
theorem opsC_keeps (W : Valuation τ sig (Elt F)) :
    after opsC W (Proc.devRef .tc main_v3) = W (Proc.devRef .tc main_v3)
    ∧ after opsC W (Proc.devRef .tc main_v6) = W (Proc.devRef .tc main_v6)
    ∧ after opsC W (Proc.devRef .tc main_arg5) = W (Proc.devRef .tc main_arg5) := by
  refine ⟨?_, ?_, ?_⟩ <;> stretch_keeps opsC

/-! ## The six stretches in a row -/

/-- From any valuation, once all 131 operations have run the result buffer holds the last stage of the reference, read
    one operation at a time, of what the six argument buffers held: each stretch's stage of what the stretch before
    it left, the buffers in between untouched. -/
theorem ops_result (V : Valuation τ sig (Elt F)) :
    (after ops V (Proc.devRef .tc main_v88) : S50000x16.Idx → Elt F .f32)
      = val_main_v88 (F := F) (V (Proc.devRef .tc main_arg0)) (V (Proc.devRef .tc main_arg1))
          (V (Proc.devRef .tc main_arg2)) (V (Proc.devRef .tc main_arg3)) (V (Proc.devRef .tc main_arg4))
          (V (Proc.devRef .tc main_arg5)) := by
  rw [ops_cut]
  simp only [after_append]
  obtain ⟨a3, a4, a5⟩ := opsA_keeps V
  have A3 := opsA_src V _ rfl
  have A6 := opsA_dst V _ rfl
  have A7 := opsA_dense V _ _ rfl rfl
  have A30 := opsA_weights V _ rfl
  generalize after opsA V = VA at *
  obtain ⟨b3, b6, b4, b5⟩ := opsB_keeps VA
  have B46 := opsB_aggregate VA _ _ _ _ A30 A3 A6 A7 a3
  generalize after opsB VA = VB at *
  obtain ⟨c3, c6, c5⟩ := opsC_keeps VB
  have C48 := opsC_dense VB _ _ _ _ _ B46 (b4.trans a4)
  generalize after opsC VB = VC at *
  obtain ⟨d3, d6, d48, d5⟩ := opsD_keeps VC
  have D71 := opsD_weights VC _ (c3.trans (b3.trans A3)) (c6.trans (b6.trans A6))
  generalize after opsD VC = VD at *
  have E87 := opsE_aggregate VD _ _ _ _ _ _ D71 (d3.trans (c3.trans (b3.trans A3))) (d6.trans (c6.trans (b6.trans A6)))
    (d48.trans C48) (d5.trans (c5.trans (b5.trans a5)))
  generalize after opsE VD = VE at *
  exact opsF_logSoftmax VE _ _ _ _ _ _ E87

/-! ## The arguments -/

set_option maxHeartbeats 4000000 in
/-- None of the 131 operations writes an argument buffer: each argument ends holding what it held. -/
theorem ops_args (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5) := by
  refine ⟨?_, ?_, ?_, ?_, ?_, ?_⟩ <;> stretch_keeps ops

/-! ## The run -/

/-- Every weakly fair execution of the reference terminates; its result buffer ends at the last stage
    `val_main_v88` of the six argument arrays, and the arguments end as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88)
          = val_main_v88 (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r hr c => ?_) (run_fold m ρ)
  obtain ⟨g0, g1, g2, g3, g4, g5⟩ := ops_args (F := F) (launchContents m c)
  exact ⟨(hr c main_v88).trans (ops_result (launchContents m c)), (hr c main_arg0).trans g0, (hr c main_arg1).trans g1,
    (hr c main_arg2).trans g2, (hr c main_arg3).trans g3, (hr c main_arg4).trans g4, (hr c main_arg5).trans g5⟩

end Cert.ReferenceIdeal.RunH

end
-- ==== Proof.lean ====
/-
  A two-layer graph convolution with a final log-softmax, three Pallas kernels against a plain jnp reference:
      out = log_softmax( Â · relu( Â · (x W₁) + b₁ ) W₂ + b₂ ),
  where Â aggregates over the edges and self-loops with the weights deg(src)^(-1/2) · deg(dst)^(-1/2).

  Read on the extended reals the two programs apply the same operations. The kernel program computes the edge weights
  once and uses them in both layers, while the reference computes them twice, by the same operations of the same edge
  list; the kernel's products are taken 5000 rows at a time (a change of float format is the identity there, and a
  product accumulated into a zero splat is the plain sum over the contracted index), the clamp at zero is fused into
  the second product, and the log-softmax is taken 5000 rows at a time, each row by the same expression
  x − M − log Σ exp(x − M) as the reference's (whose maximum is taken once more against −∞). Everything between the
  kernels — the gathers by source node, the scatter-adds by destination node, the bias — is literally shared. So no law
  of arithmetic beyond 0 + s = s and max(−∞, y) = y is used, and the finiteness of the inputs is never opened.

  The kernel program's value is read off its frame run segment by segment (Proof/KernelValue.lean): after each region
  the output array is the reference's corresponding stage (Proof/Dense1.lean, Dense2.lean, LogSoftmax.lean), and after
  each stretch of host operations the next region's input is the reference's next stage (Proof/Norm.lean, Agg.lean,
  RefGlue.lean). The reference's run is read stretch by stretch (Proof/RefStages.lean).
-/
import proofs.«155629_j1168231104918_1_alg».proof.Defs
import proofs.«155629_j1168231104918_1_alg».proof.Proof.Gen.Kernel
import proofs.«155629_j1168231104918_1_alg».proof.Proof.Gen.Kernel.Frame
import proofs.«155629_j1168231104918_1_alg».proof.Proof.Gen.KernelIdeal
import proofs.«155629_j1168231104918_1_alg».proof.Proof.Gen.KernelIdeal.Frame
import proofs.«155629_j1168231104918_1_alg».proof.Proof.Gen.ReferenceIdeal
import proofs.«155629_j1168231104918_1_alg».proof.Proof.Gen.Pre_finite_inputs
import proofs.«155629_j1168231104918_1_alg».proof.Proof.KernelValue
import proofs.«155629_j1168231104918_1_alg».proof.Proof.RefStages
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.RunH.run (F := Ideal) m ρ)

/-- Both programs end with their result at the same function of the six arguments, the reference's last stage. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.RunH.run (F := Ideal) m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
